-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x3 : Shape := ⟨2, ![64, 3]⟩
abbrev S3 : Shape := ⟨1, ![3]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg7 : FVec F S3 .f32) (main_v33 : IVec S_ 1) : IVec S_ 1 :=
  let main_v34 : FVec F S3 .f32 := Host.absf main_arg7
  let main_cst_12 : FVec F S_ .f32 := constant S_ .f32 0x7F800000#32
  let main_v35 : FVec F S3 .f32 := broadcastInDim S3 ![] bcast_S_S3 main_cst_12
  let main_v36 : IVec S3 1 := cmpf .olt main_v34 main_v35
  let main_c_13 : IVec S_ 1 := constantI S_ 1 1#1
  let main_v37 : IVec S_ 1 := (fun x v => Host.reduce IntOp.andi x v reducesTo_S3_S_d0 h_S_) main_v36 main_c_13
  let main_v38 : IVec S_ 1 := andi main_v33 main_v37
  main_v38

def fn_part1 {F : FTy → Type} [FloatOps F] (main_arg4 : FVec F S128x64 .f32) (main_arg5 : FVec F S64 .f32) (main_arg6 : FVec F S64x3 .f32) (main_arg7 : FVec F S3 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x3 .f32 := Host.absf main_arg6
  let main_cst_10 : FVec F S_ .f32 := constant S_ .f32 0x7F800000#32
  let main_v30 : FVec F S64x3 .f32 := broadcastInDim S64x3 ![] bcast_S_S64x3 main_cst_10
  let main_v31 : IVec S64x3 1 := cmpf .olt main_v29 main_v30
  let main_c_11 : IVec S_ 1 := constantI S_ 1 1#1
  let main_v32 : IVec S_ 1 := (fun x v => Host.reduce IntOp.andi x v reducesTo_S64x3_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x64 .f32) (main_arg5 : FVec F S64 .f32) (main_arg6 : FVec F S64x3 .f32) (main_arg7 : FVec F S3 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x3 : Shape := ⟨2, ![64, 3]⟩
abbrev S3 : Shape := ⟨1, ![3]⟩
abbrev S1000x128 : Shape := ⟨2, ![1000, 128]⟩
abbrev S1x128 : Shape := ⟨2, ![1, 128]⟩
abbrev S10000x64 : Shape := ⟨2, ![10000, 64]⟩
abbrev S200x10000 : Shape := ⟨2, ![200, 10000]⟩
abbrev S200x64 : Shape := ⟨2, ![200, 64]⟩
abbrev S200x128 : Shape := ⟨2, ![200, 128]⟩
abbrev S_ : Shape := ⟨0, ![]⟩
abbrev S64x128 : Shape := ⟨2, ![64, 128]⟩
abbrev S1 : Shape := ⟨1, ![1]⟩
abbrev S2 : Shape := ⟨1, ![2]⟩
abbrev S1x64 : Shape := ⟨2, ![1, 64]⟩
abbrev S400x10000 : Shape := ⟨2, ![400, 10000]⟩
abbrev S400x128 : Shape := ⟨2, ![400, 128]⟩
abbrev S400x64 : Shape := ⟨2, ![400, 64]⟩
abbrev S400 : Shape := ⟨1, ![400]⟩
abbrev S400x1 : Shape := ⟨2, ![400, 1]⟩
abbrev S10000x3 : Shape := ⟨2, ![10000, 3]⟩

abbrev nBuf : Space → Nat
  | .hbm => 29
  | .vmem => 27
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x3, .f32⟩
  | .hbm, ⟨7, _⟩ => ⟨S3, .f32⟩
  | .hbm, ⟨8, _⟩ => ⟨S10000x128, .bf16⟩
  | .hbm, ⟨9, _⟩ => ⟨S1x128, .f32⟩
  | .hbm, ⟨10, _⟩ => ⟨S10000x64, .bf16⟩
  | .hbm, ⟨11, _⟩ => ⟨S10000x10000, .bf16⟩
  | .hbm, ⟨12, _⟩ => ⟨S_, .f32⟩
  | .hbm, ⟨13, _⟩ => ⟨S64x128, .f32⟩
  | .hbm, ⟨14, _⟩ => ⟨S_, .i32⟩
  | .hbm, ⟨15, _⟩ => ⟨S1, .i32⟩
  | .hbm, ⟨16, _⟩ => ⟨S64x128, .f32⟩
  | .hbm, ⟨17, _⟩ => ⟨S_, .f32⟩
  | .hbm, ⟨18, _⟩ => ⟨S1x128, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S2, .i32⟩
  | .hbm, ⟨24, _⟩ => ⟨S1x128, .f32⟩
  | .hbm, ⟨25, _⟩ => ⟨S1x64, .f32⟩
  | .hbm, ⟨26, _⟩ => ⟨S10000x128, .bf16⟩
  | .hbm, ⟨27, _⟩ => ⟨S10000x128, .f32⟩
  | .hbm, ⟨28, _⟩ => ⟨S10000x3, .f32⟩
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S1000x128, .bf16⟩
  | .local _ .vmem, ⟨4, _⟩ => ⟨S1000x128, .bf16⟩
  | .local _ .vmem, ⟨5, _⟩ => ⟨S200x10000, .f32⟩
  | .local _ .vmem, ⟨6, _⟩ => ⟨S200x10000, .f32⟩
  | .local _ .vmem, ⟨7, _⟩ => ⟨S10000x128, .bf16⟩
  | .local _ .vmem, ⟨8, _⟩ => ⟨S1x128, .f32⟩
  | .local _ .vmem, ⟨9, _⟩ => ⟨S128x64, .f32⟩
  | .local _ .vmem, ⟨10, _⟩ => ⟨S200x64, .bf16⟩
  | .local _ .vmem, ⟨11, _⟩ => ⟨S200x64, .bf16⟩
  | .local _ .vmem, ⟨12, _⟩ => ⟨S200x10000, .bf16⟩
  | .local _ .vmem, ⟨13, _⟩ => ⟨S200x10000, .bf16⟩
  | .local _ .vmem, ⟨14, _⟩ => ⟨S400x10000, .bf16⟩
  | .local _ .vmem, ⟨15, _⟩ => ⟨S400x10000, .bf16⟩
  | .local _ .vmem, ⟨16, _⟩ => ⟨S10000x64, .bf16⟩
  | .local _ .vmem, ⟨17, _⟩ => ⟨S1x64, .f32⟩
  | .local _ .vmem, ⟨18, _⟩ => ⟨S64x128, .f32⟩
  | .local _ .vmem, ⟨19, _⟩ => ⟨S400x128, .bf16⟩
  | .local _ .vmem, ⟨20, _⟩ => ⟨S400x128, .bf16⟩
  | .local _ .vmem, ⟨21, _⟩ => ⟨S400x10000, .bf16⟩
  | .local _ .vmem, ⟨22, _⟩ => ⟨S400x10000, .bf16⟩
  | .local _ .vmem, ⟨23, _⟩ => ⟨S10000x128, .bf16⟩
  | .local _ .vmem, ⟨24, _⟩ => ⟨S1x128, .f32⟩
  | .local _ .vmem, ⟨25, _⟩ => ⟨S400x128, .f32⟩
  | .local _ .vmem, ⟨26, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_cst : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_c_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem3_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S200x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S200x10000 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S400x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S400x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  inb_S1000x128_S1000x128_0_0 : ∀ a, (![0, 0] : Fin 2 → Nat) a + S1000x128.size a ≤ S1000x128.size a
  h_S1000x128 : 0 < S1000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  packedbf16_S1000x128_S1000x128_0_0 : (Rect.unit (s := S1000x128) ![0, 0] S1000x128.size inb_S1000x128_S1000x128_0_0).PackedRows (EltTy.packing .bf16)
  shapeCasts_S128_S1x128 : S128.ShapeCasts S1x128
  inb_S200x10000_S200x10000_0_0 : ∀ a, (![0, 0] : Fin 2 → Nat) a + S200x10000.size a ≤ S200x10000.size a
  h_S200x10000 : 0 < S200x10000.numel
  packedbf16_S200x10000_S200x10000_0_0 : (Rect.unit (s := S200x10000) ![0, 0] S200x10000.size inb_S200x10000_S200x10000_0_0).PackedRows (EltTy.packing .bf16)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S128x64_S128x64_0_0 : ∀ a, (![0, 0] : Fin 2 → Nat) a + S128x64.size a ≤ S128x64.size a
  h_S128x64 : 0 < S128x64.numel
  inb_S200x64_S200x64_0_0 : ∀ a, (![0, 0] : Fin 2 → Nat) a + S200x64.size a ≤ S200x64.size a
  h_S200x64 : 0 < S200x64.numel
  packedbf16_S200x64_S200x64_0_0 : (Rect.unit (s := S200x64) ![0, 0] S200x64.size inb_S200x64_S200x64_0_0).PackedRows (EltTy.packing .bf16)
  bcast_S_S64x128 : S_.BroadcastsInDim S64x128 (![] : Fin 0 → Fin S64x128.rank)
  bcast_S_S1 : S_.BroadcastsInDim S1 (![] : Fin 0 → Fin S1.rank)
  bcast_S_S1x128 : S_.BroadcastsInDim S1x128 (![] : Fin 0 → Fin S1x128.rank)
  concatenates_S1_S1_S2_d0 : Shape.Concatenates [S1, S1] S2 0
  shapeCasts_S64_S1x64 : S64.ShapeCasts S1x64
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S400x128_S400x128_0_0 : ∀ a, (![0, 0] : Fin 2 → Nat) a + S400x128.size a ≤ S400x128.size a
  h_S400x128 : 0 < S400x128.numel
  packedbf16_S400x128_S400x128_0_0 : (Rect.unit (s := S400x128) ![0, 0] S400x128.size inb_S400x128_S400x128_0_0).PackedRows (EltTy.packing .bf16)
  broadcasts_S1x128_S400x128 : S1x128.Broadcasts S400x128
  iota_S400x128_d1_w32 : S400x128.Iotas .tc 32 [1]
  reduces_S400x128_S400 : S400x128.Reduces [1] S400
  shapeCasts_S400_S400x1 : S400.ShapeCasts S400x1
  broadcasts_S400x1_S400x128 : S400x1.Broadcasts S400x128
  slices_S10000x128_S10000x3_0_0 : S10000x128.Slices ![0, 0] S10000x3
  dot_S1000x128_S128x128_S1000x128_1_0_0_1_n_n_wf : DotDims.WF S1000x128 S128x128 S1000x128 [1] [0] [0] [1] [] []
  dot_S200x10000_S10000x128_S200x128_1_0_0_1_n_n_wf : DotDims.WF S200x10000 S10000x128 S200x128 [1] [0] [0] [1] [] []
  dot_S200x128_S128x64_S200x64_1_0_0_1_n_n_wf : DotDims.WF S200x128 S128x64 S200x64 [1] [0] [0] [1] [] []
  scatter_S64x128_S1_S64x3_01_n_1_0_wf : ScatterDims.WF S64x128 S1 S64x3 [0, 1] [] [1] 0
  scatter_S1x128_S2_S3_0_0_01_0_wf : ScatterDims.WF S1x128 S2 S3 [0] [0] [0, 1] 0
  dot_S400x10000_S10000x64_S400x64_1_0_0_1_n_n_wf : DotDims.WF S400x10000 S10000x64 S400x64 [1] [0] [0] [1] [] []
  dot_S400x64_S64x128_S400x128_1_0_0_1_n_n_wf : DotDims.WF S400x64 S64x128 S400x128 [1] [0] [0] [1] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S10000x128.size a
  hwx0_2 : ∀ i : grid0.Coords, EltTy.bits .bf16 = 32 ∨ (Rect.block (s := S10000x128) S1000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S200x64.size a ≤ S10000x64.size a
  hwx1_4 : ∀ i : grid1.Coords, EltTy.bits .bf16 = 32 ∨ (Rect.block (s := S10000x64) S200x64.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S200x10000.size a ≤ S10000x10000.size a
  hwx1_5 : ∀ i : grid1.Coords, EltTy.bits .bf16 = 32 ∨ (Rect.block (s := S10000x10000) S200x10000.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S10000x64.size a
  hwx2_1 : ∀ i : grid2.Coords, EltTy.bits .bf16 = 32 ∨ (Rect.block (s := S10000x64) S10000x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x128.size a ≤ S64x128.size a
  hwx2_3 : ∀ i : grid2.Coords, EltTy.bits .f32 = 32 ∨ (Rect.block (s := S64x128) S64x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x128.size a ≤ S10000x128.size a
  hwx2_4 : ∀ i : grid2.Coords, EltTy.bits .bf16 = 32 ∨ (Rect.block (s := S10000x128) S400x128.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .bf16 = 32 ∨ (Rect.block (s := S10000x10000) S400x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S10000x128.size a
  hwx3_1 : ∀ i : grid3.Coords, EltTy.bits .bf16 = 32 ∨ (Rect.block (s := S10000x128) S10000x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x128.size a ≤ S10000x128.size a
  hwx3_3 : ∀ i : grid3.Coords, EltTy.bits .f32 = 32 ∨ (Rect.block (s := S10000x128) S400x128.size (cc3_transform_3 i) (hinb3_3 i)).WholeWords (EltTy.packing .f32)

variable [Facts₀]

def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x64_S200x64_1_0_0_1_n_n : DotDims S200x128 S128x64 S200x64 where
  lhsContracting := [1]
  rhsContracting := [0]
  lhsNonContracting := [0]
  rhsNonContracting := [1]
  lhsBatch := []
  rhsBatch := []
  wf := dot_S200x128_S128x64_S200x64_1_0_0_1_n_n_wf
def scatter_S64x128_S1_S64x3_01_n_1_0 : ScatterDims S64x128 S1 S64x3 where
  updateWindowDims := [0, 1]
  insertedWindowDims := []
  scatterDimsToOperandDims := [1]
  indexVectorDim := 0
  wf := scatter_S64x128_S1_S64x3_01_n_1_0_wf
def scatter_S1x128_S2_S3_0_0_01_0 : ScatterDims S1x128 S2 S3 where
  updateWindowDims := [0]
  insertedWindowDims := [0]
  scatterDimsToOperandDims := [0, 1]
  indexVectorDim := 0
  wf := scatter_S1x128_S2_S3_0_0_01_0_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x128_S400x128_1_0_0_1_n_n : DotDims S400x64 S64x128 S400x128 where
  lhsContracting := [1]
  rhsContracting := [0]
  lhsNonContracting := [0]
  rhsNonContracting := [1]
  lhsBatch := []
  rhsBatch := []
  wf := dot_S400x64_S64x128_S400x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2_0) S200x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v2_1) S200x10000.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v2_1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2_0) S10000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S64x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v12) S400x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v2_1) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S10000x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v10) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v13) S400x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x3 : Shape := ⟨2, ![64, 3]⟩
abbrev S3 : Shape := ⟨1, ![3]⟩
abbrev S1x128 : Shape := ⟨2, ![1, 128]⟩
abbrev S_ : Shape := ⟨0, ![]⟩
abbrev S10000x64 : Shape := ⟨2, ![10000, 64]⟩
abbrev S1x64 : Shape := ⟨2, ![1, 64]⟩
abbrev S10000x3 : Shape := ⟨2, ![10000, 3]⟩
abbrev S1x3 : Shape := ⟨2, ![1, 3]⟩
abbrev S10000 : Shape := ⟨1, ![10000]⟩
abbrev S10000x1 : Shape := ⟨2, ![10000, 1]⟩

abbrev nBuf : Space → Nat
  | .hbm => 44
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x3, .f32⟩
  | .hbm, ⟨7, _⟩ => ⟨S3, .f32⟩
  | .hbm, ⟨8, _⟩ => ⟨S10000x128, .f32⟩
  | .hbm, ⟨9, _⟩ => ⟨S10000x128, .f32⟩
  | .hbm, ⟨10, _⟩ => ⟨S1x128, .f32⟩
  | .hbm, ⟨11, _⟩ => ⟨S10000x128, .f32⟩
  | .hbm, ⟨12, _⟩ => ⟨S10000x128, .f32⟩
  | .hbm, ⟨13, _⟩ => ⟨S_, .f32⟩
  | .hbm, ⟨14, _⟩ => ⟨S10000x128, .f32⟩
  | .hbm, ⟨15, _⟩ => ⟨S10000x128, .f32⟩
  | .hbm, ⟨16, _⟩ => ⟨S10000x64, .f32⟩
  | .hbm, ⟨17, _⟩ => ⟨S10000x64, .f32⟩
  | .hbm, ⟨18, _⟩ => ⟨S1x64, .f32⟩
  | .hbm, ⟨19, _⟩ => ⟨S10000x64, .f32⟩
  | .hbm, ⟨20, _⟩ => ⟨S10000x64, .f32⟩
  | .hbm, ⟨21, _⟩ => ⟨S_, .f32⟩
  | .hbm, ⟨22, _⟩ => ⟨S10000x64, .f32⟩
  | .hbm, ⟨23, _⟩ => ⟨S10000x64, .f32⟩
  | .hbm, ⟨24, _⟩ => ⟨S10000x3, .f32⟩
  | .hbm, ⟨25, _⟩ => ⟨S10000x3, .f32⟩
  | .hbm, ⟨26, _⟩ => ⟨S1x3, .f32⟩
  | .hbm, ⟨27, _⟩ => ⟨S10000x3, .f32⟩
  | .hbm, ⟨28, _⟩ => ⟨S10000x3, .f32⟩
  | .hbm, ⟨29, _⟩ => ⟨S_, .f32⟩
  | .hbm, ⟨30, _⟩ => ⟨S10000, .f32⟩
  | .hbm, ⟨31, _⟩ => ⟨S_, .f32⟩
  | .hbm, ⟨32, _⟩ => ⟨S10000, .f32⟩
  | .hbm, ⟨33, _⟩ => ⟨S10000, .f32⟩
  | .hbm, ⟨34, _⟩ => ⟨S10000x1, .f32⟩
  | .hbm, ⟨35, _⟩ => ⟨S10000x3, .f32⟩
  | .hbm, ⟨36, _⟩ => ⟨S10000x3, .f32⟩
  | .hbm, ⟨37, _⟩ => ⟨S10000x3, .f32⟩
  | .hbm, ⟨38, _⟩ => ⟨S_, .f32⟩
  | .hbm, ⟨39, _⟩ => ⟨S10000, .f32⟩
  | .hbm, ⟨40, _⟩ => ⟨S10000x1, .f32⟩
  | .hbm, ⟨41, _⟩ => ⟨S10000x1, .f32⟩
  | .hbm, ⟨42, _⟩ => ⟨S10000x3, .f32⟩
  | .hbm, ⟨43, _⟩ => ⟨S10000x3, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call2_cst : Ref sig .tc := ⟨.hbm, 29, rfl⟩
abbrev main_call2_v0 : Ref sig .tc := ⟨.hbm, 30, rfl⟩
abbrev main_call2_cst_0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_v6 : Ref sig .tc := ⟨.hbm, 37, rfl⟩
abbrev main_call2_cst_1 : Ref sig .tc := ⟨.hbm, 38, rfl⟩
abbrev main_call2_v7 : Ref sig .tc := ⟨.hbm, 39, rfl⟩
abbrev main_call2_v8 : Ref sig .tc := ⟨.hbm, 40, rfl⟩
abbrev main_call2_v9 : Ref sig .tc := ⟨.hbm, 41, rfl⟩
abbrev main_call2_v10 : Ref sig .tc := ⟨.hbm, 42, rfl⟩
abbrev main_v17 : Ref sig .tc := ⟨.hbm, 43, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S3_S1x3_1 : S3.BroadcastsInDim S1x3 (![1] : Fin 1 → Fin S1x3.rank)
  bcast_S1x3_S10000x3_0_1 : S1x3.BroadcastsInDim S10000x3 (![0, 1] : Fin 2 → Fin S10000x3.rank)
  reducesTo_S10000x3_S10000_d1 : S10000x3.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x3_0_1 : S10000x1.BroadcastsInDim S10000x3 (![0, 1] : Fin 2 → Fin S10000x3.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x3_S10000x3_1_0_0_1_n_n_wf : DotDims.WF S10000x64 S64x3 S10000x3 [1] [0] [0] [1] [] []
  dot_S10000x10000_S10000x3_S10000x3_1_0_0_1_n_n_wf : DotDims.WF S10000x10000 S10000x3 S10000x3 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x3_S10000x3_1_0_0_1_n_n : DotDims S10000x64 S64x3 S10000x3 where
  lhsContracting := [1]
  rhsContracting := [0]
  lhsNonContracting := [0]
  rhsNonContracting := [1]
  lhsBatch := []
  rhsBatch := []
  wf := dot_S10000x64_S64x3_S10000x3_1_0_0_1_n_n_wf
def dot_S10000x10000_S10000x3_S10000x3_1_0_0_1_n_n : DotDims S10000x10000 S10000x3 S10000x3 where
  lhsContracting := [1]
  rhsContracting := [0]
  lhsNonContracting := [0]
  rhsNonContracting := [1]
  lhsBatch := []
  rhsBatch := []
  wf := dot_S10000x10000_S10000x3_S10000x3_1_0_0_1_n_n_wf

class Facts : Prop extends Facts₀ where

variable [Facts]
-- ==== Proof.Spec.lean ====
/-
  The three-layer graph network as plain mathematics over the extended reals, index by index.

  A matrix is a function of a two-coordinate index. `mm` is the matrix product (an exact sum of exact products);
  `logits A S b` is `A·S` with the row `b` added to every row; `hidden` is its positive part. The network is
  `logSoftmax (A·(relu (A·(relu (A·(x·W₁) + b₁)·W₂) + b₂)·W₃) + b₃)` with `A` the adjacency matrix.

  Two spellings of the last layer are compared. The narrow one works on the `v` class columns. The wide one pads the
  last weight matrix and bias with zero columns up to `w` lanes, takes the row maximum and the sum of exponentials
  over the `v` valid lanes only, subtracts `log (sum) + max` in one step, and keeps the first `v` columns.
  They agree on every entry as soon as every input entry is a real number: the padded columns never enter a valid
  lane's value, a maximum or a sum over masked lanes is the one over the valid lanes, and for a real maximum `m`
  `a - (L + m) = (a - m) - L` whatever `L` is. (At an infinite entry the two spellings can differ, which is why
  finiteness of the inputs is used.)
-/
import Idealize.ShloMosaic.Lib.ValueIdx
import Idealize.ShloMosaic.PureOps.Ideal
import Mathlib.Data.Finset.Fold

noncomputable section

namespace Cert.Gcn

open Idealize.ShloMosaic Idealize.ShloMosaic.ValueIdx

/-- An `M × N` matrix of extended reals, as a function of its index. -/
abbrev Mat (M N : Nat) : Type := (⟨2, ![M, N]⟩ : Shape).Idx → EReal
/-- A vector of `N` extended reals. -/
abbrev Row (N : Nat) : Type := (⟨1, ![N]⟩ : Shape).Idx → EReal

variable {M K N n f h₁ h₂ h v w : Nat}

/-- The matrix product: entry `(r, c)` is `∑ k, A (r, k) * B (k, c)`. -/
def mm (A : Mat M K) (B : Mat K N) : Mat M N :=
  fun i => ∑ k : Fin K, A (ix2 (i 0) k) * B (ix2 k (i 1))

theorem mm_apply (A : Mat M K) (B : Mat K N) (r : Fin M) (c : Fin N) :
    mm A B (ix2 r c) = ∑ k : Fin K, A (ix2 r k) * B (ix2 k c) := rfl

/-- `A·S + b`: the product with the one-row matrix `b` added to every row. -/
def logits (A : Mat n n) (S : Mat n h) (b : Mat 1 h) : Mat n h :=
  fun i => mm A S i + b (ix2 (0 : Fin 1) (i 1))

theorem logits_apply (A : Mat n n) (S : Mat n h) (b : Mat 1 h) (r : Fin n) (c : Fin h) :
    logits A S b (ix2 r c) = (∑ k : Fin n, A (ix2 r k) * S (ix2 k c)) + b (ix2 (0 : Fin 1) c) := rfl

/-- `relu (A·S + b)`. -/
def hidden (A : Mat n n) (S : Mat n h) (b : Mat 1 h) : Mat n h :=
  fun i => max (logits A S b i) 0

theorem hidden_apply (A : Mat n n) (S : Mat n h) (b : Mat 1 h) (r : Fin n) (c : Fin h) :
    hidden A S b (ix2 r c) = max ((∑ k : Fin n, A (ix2 r k) * S (ix2 k c)) + b (ix2 (0 : Fin 1) c)) 0 := rfl

/-- A vector as a one-row matrix. -/
def asRow (b : Row h) : Mat 1 h := fun i => b (ix1 (i 1))

theorem asRow_apply (b : Row h) (u : Fin 1) (c : Fin h) : asRow b (ix2 u c) = b (ix1 c) := rfl

/-- A matrix with zero columns appended up to `w` columns. -/
def padCols (w : Nat) (W : Mat K v) : Mat K w :=
  fun i => if hc : (i 1).val < v then W (ix2 (i 0) ⟨(i 1).val, hc⟩) else 0

theorem padCols_apply (w : Nat) (W : Mat K v) (r : Fin K) (c : Fin w) :
    padCols w W (ix2 r c) = if hc : c.val < v then W (ix2 r ⟨c.val, hc⟩) else 0 := rfl

/-- The maximum of row `r` over its first `v` lanes (the other lanes count as `-∞`). -/
def rowMax (v : Nat) (H : Mat n w) (r : Fin n) : EReal :=
  (Finset.univ : Finset (Fin w)).fold max ⊥ fun j => if j.val < v then H (ix2 r j) else ⊥

/-- The sum over the first `v` lanes of row `r` of `exp (entry - rowMax)` (the other lanes count as `0`). -/
def rowSumExp (v : Nat) (H : Mat n w) (r : Fin n) : EReal :=
  ∑ j : Fin w, if j.val < v then Ideal.exp (H (ix2 r j) - rowMax v H r) else 0

/-- The wide spelling of the log-softmax over the first `v` lanes: `entry - (log (sum of exponentials) + maximum)`. -/
def logSoftmaxWide (v : Nat) (H : Mat n w) : Mat n w :=
  fun i => H i - (Ideal.log (rowSumExp v H (i 0)) + rowMax v H (i 0))

theorem logSoftmaxWide_apply (v : Nat) (H : Mat n w) (r : Fin n) (c : Fin w) :
    logSoftmaxWide v H (ix2 r c) = H (ix2 r c) - (Ideal.log (rowSumExp v H r) + rowMax v H r) := rfl

/-- The maximum of row `r`. -/
def rowMaxAll (H : Mat n v) (r : Fin n) : EReal :=
  (Finset.univ : Finset (Fin v)).fold max ⊥ fun j => H (ix2 r j)

/-- The narrow spelling: `(entry - maximum) - log (sum of exp (entry - maximum))` over all lanes. -/
def logSoftmax (H : Mat n v) : Mat n v :=
  fun i => (H i - rowMaxAll H (i 0)) - Ideal.log (∑ j : Fin v, Ideal.exp (H (ix2 (i 0) j) - rowMaxAll H (i 0)))

theorem logSoftmax_apply (H : Mat n v) (r : Fin n) (c : Fin v) :
    logSoftmax H (ix2 r c) = (H (ix2 r c) - rowMaxAll H r) - Ideal.log (∑ j : Fin v, Ideal.exp (H (ix2 r j) - rowMaxAll H r)) := rfl

/-- The second hidden layer, common to both spellings. -/
def hidden₂ (x : Mat n f) (A : Mat n n) (W₁ : Mat f h₁) (b₁ : Row h₁) (W₂ : Mat h₁ h₂) (b₂ : Row h₂) : Mat n h₂ :=
  hidden A (mm (hidden A (mm x W₁) (asRow b₁)) W₂) (asRow b₂)

/-- The network in the wide spelling: padded last layer, masked log-softmax over `w` lanes, first `v` columns kept. -/
def wideOut (hw : v ≤ w) (x : Mat n f) (A : Mat n n) (W₁ : Mat f h₁) (b₁ : Row h₁) (W₂ : Mat h₁ h₂) (b₂ : Row h₂)
    (W₃ : Mat h₂ v) (b₃ : Row v) : Mat n v :=
  fun i => logSoftmaxWide v (logits A (mm (hidden₂ x A W₁ b₁ W₂ b₂) (padCols w W₃)) (padCols w (asRow b₃)))
    (ix2 (i 0) (Fin.castLE hw (i 1)))

/-- The network in the narrow spelling. -/
def narrowOut (x : Mat n f) (A : Mat n n) (W₁ : Mat f h₁) (b₁ : Row h₁) (W₂ : Mat h₁ h₂) (b₂ : Row h₂)
    (W₃ : Mat h₂ v) (b₃ : Row v) : Mat n v :=
  logSoftmax (logits A (mm (hidden₂ x A W₁ b₁ W₂ b₂) W₃) (asRow b₃))

/-! ## Entries that are real numbers -/

/-- An extended real that is a real number. -/
def IsReal (a : EReal) : Prop := ∃ r : ℝ, a = r

/-- Every entry is a real number. -/
def AllReal {ι : Type} (A : ι → EReal) : Prop := ∀ i, IsReal (A i)

theorem IsReal.add {a b : EReal} : IsReal a → IsReal b → IsReal (a + b)
  | ⟨r, hr⟩, ⟨s, hs⟩ => ⟨r + s, by rw [hr, hs, EReal.coe_add]⟩

theorem IsReal.mul {a b : EReal} : IsReal a → IsReal b → IsReal (a * b)
  | ⟨r, hr⟩, ⟨s, hs⟩ => ⟨r * s, by rw [hr, hs, EReal.coe_mul]⟩

theorem IsReal.max_zero {a : EReal} : IsReal a → IsReal (max a 0)
  | ⟨r, hr⟩ => ⟨max r 0, by rw [hr, ← EReal.coe_zero]; exact (EReal.coe_strictMono.monotone.map_max).symm⟩

theorem isReal_zero : IsReal 0 := ⟨0, EReal.coe_zero.symm⟩

theorem IsReal.sum {ι : Type} (s : Finset ι) (g : ι → EReal) (hg : ∀ k ∈ s, IsReal (g k)) : IsReal (∑ k ∈ s, g k) := by
  classical
  induction s using Finset.induction_on with
  | empty => simpa using isReal_zero
  | insert a s ha ih =>
    rw [Finset.sum_insert ha]
    exact (hg a (Finset.mem_insert_self a s)).add (ih fun k hk => hg k (Finset.mem_insert_of_mem hk))

theorem AllReal.mm {A : Mat M K} {B : Mat K N} (hA : AllReal A) (hB : AllReal B) : AllReal (mm A B) :=
  fun _ => IsReal.sum _ _ fun _ _ => (hA _).mul (hB _)

theorem AllReal.logits {A : Mat n n} {S : Mat n h} {b : Mat 1 h} (hA : AllReal A) (hS : AllReal S) (hb : AllReal b) :
    AllReal (logits A S b) :=
  fun i => (hA.mm hS i).add (hb _)

theorem AllReal.hidden {A : Mat n n} {S : Mat n h} {b : Mat 1 h} (hA : AllReal A) (hS : AllReal S) (hb : AllReal b) :
    AllReal (hidden A S b) :=
  fun i => (hA.logits hS hb i).max_zero

theorem AllReal.asRow {b : Row h} (hb : AllReal b) : AllReal (asRow b) := fun _ => hb _

theorem AllReal.hidden₂ {x : Mat n f} {A : Mat n n} {W₁ : Mat f h₁} {b₁ : Row h₁} {W₂ : Mat h₁ h₂} {b₂ : Row h₂}
    (hx : AllReal x) (hA : AllReal A) (hW₁ : AllReal W₁) (hb₁ : AllReal b₁) (hW₂ : AllReal W₂) (hb₂ : AllReal b₂) :
    AllReal (hidden₂ x A W₁ b₁ W₂ b₂) :=
  hA.hidden ((hA.hidden (hx.mm hW₁) hb₁.asRow).mm hW₂) hb₂.asRow

/-! ## Masked lanes -/

/-- A sum over `w` lanes of which only the first `v` count is the sum over those `v`. -/
theorem sum_masked (hw : v ≤ w) (g : Fin w → EReal) :
    (∑ j : Fin w, if j.val < v then g j else 0) = ∑ c : Fin v, g (Fin.castLE hw c) := by
  rw [← Finset.sum_filter]
  refine (Finset.sum_bij (fun c _ => Fin.castLE hw c) ?_ ?_ ?_ ?_).symm
  · intro c _
    exact Finset.mem_filter.mpr ⟨Finset.mem_univ _, c.isLt⟩
  · intro a _ b _ hab
    exact Fin.ext (by have := congrArg Fin.val hab; simpa using this)
  · intro j hj
    exact ⟨⟨j.val, (Finset.mem_filter.mp hj).2⟩, Finset.mem_univ _, Fin.ext rfl⟩
  · intro c _
    rfl

/-- A maximum over `w` lanes of which only the first `v` count is the maximum over those `v`. -/
theorem max_masked (hw : v ≤ w) (g : Fin w → EReal) :
    ((Finset.univ : Finset (Fin w)).fold max ⊥ fun j => if j.val < v then g j else ⊥)
      = (Finset.univ : Finset (Fin v)).fold max ⊥ fun c => g (Fin.castLE hw c) := by
  apply le_antisymm
  · refine (Finset.fold_max_le _).mpr ⟨bot_le, fun j _ => ?_⟩
    by_cases hj : j.val < v
    · rw [if_pos hj]
      exact (Finset.le_fold_max _).mpr (Or.inr ⟨⟨j.val, hj⟩, Finset.mem_univ _, le_of_eq (congrArg g (Fin.ext rfl))⟩)
    · rw [if_neg hj]; exact bot_le
  · refine (Finset.fold_max_le _).mpr ⟨bot_le, fun c _ => ?_⟩
    refine (Finset.le_fold_max _).mpr (Or.inr ⟨Fin.castLE hw c, Finset.mem_univ _, ?_⟩)
    rw [if_pos (show (Fin.castLE hw c).val < v from c.isLt)]

/-- The maximum of finitely many real numbers, at least one, is a real number. -/
theorem isReal_fold_max (hv : 0 < v) (g : Fin v → EReal) (hg : ∀ c, IsReal (g c)) :
    IsReal ((Finset.univ : Finset (Fin v)).fold max ⊥ g) := by
  have hlt : (Finset.univ : Finset (Fin v)).fold max ⊥ g < ⊤ :=
    (Finset.fold_max_lt _).mpr ⟨bot_lt_top, fun c _ => by obtain ⟨r, hr⟩ := hg c; rw [hr]; exact EReal.coe_lt_top r⟩
  have hgt : ⊥ < (Finset.univ : Finset (Fin v)).fold max ⊥ g :=
    (Finset.lt_fold_max _).mpr (Or.inr ⟨⟨0, hv⟩, Finset.mem_univ _, by obtain ⟨r, hr⟩ := hg ⟨0, hv⟩; rw [hr]; exact EReal.bot_lt_coe r⟩)
  exact ⟨_, (EReal.coe_toReal hlt.ne hgt.ne').symm⟩

/-- For real `a` and `m` and ANY extended real `L`: `a - (L + m) = (a - m) - L`. -/
theorem sub_add_real (a m : ℝ) (L : EReal) : (a : EReal) - (L + (m : EReal)) = ((a : EReal) - (m : EReal)) - L := by
  induction L using EReal.rec with
  | bot => simp [sub_eq_add_neg]
  | top => simp [sub_eq_add_neg]
  | coe l =>
    rw [← EReal.coe_add, ← EReal.coe_sub, ← EReal.coe_sub, ← EReal.coe_sub]
    exact congrArg _ (by ring)

/-! ## The two spellings agree -/

section Agree

variable (hw : v ≤ w) (x : Mat n f) (A : Mat n n) (W₁ : Mat f h₁) (b₁ : Row h₁) (W₂ : Mat h₁ h₂) (b₂ : Row h₂)
  (W₃ : Mat h₂ v) (b₃ : Row v)

/-- A valid lane of the padded logits is the narrow logits' entry: the zero columns are never read. -/
theorem logits_padded (H : Mat n h₂) (r : Fin n) (c : Fin v) :
    logits A (mm H (padCols w W₃)) (padCols w (asRow b₃)) (ix2 r (Fin.castLE hw c))
      = logits A (mm H W₃) (asRow b₃) (ix2 r c) := by
  have hc : (Fin.castLE hw c).val < v := c.isLt
  have hfin : (⟨(Fin.castLE hw c).val, hc⟩ : Fin v) = c := Fin.ext rfl
  rw [logits_apply, logits_apply, padCols_apply, dif_pos hc, hfin]
  refine congrArg (· + _) (Finset.sum_congr rfl fun k _ => ?_)
  rw [mm_apply, mm_apply]
  refine congrArg (_ * ·) (Finset.sum_congr rfl fun l _ => ?_)
  rw [padCols_apply, dif_pos hc, hfin]

theorem wideOut_eq_narrowOut (hv : 0 < v) (hx : AllReal x) (hA : AllReal A) (hW₁ : AllReal W₁) (hb₁ : AllReal b₁)
    (hW₂ : AllReal W₂) (hb₂ : AllReal b₂) (hW₃ : AllReal W₃) (hb₃ : AllReal b₃) :
    wideOut hw x A W₁ b₁ W₂ b₂ W₃ b₃ = narrowOut x A W₁ b₁ W₂ b₂ W₃ b₃ := by
  funext i
  obtain ⟨r, c, rfl⟩ : ∃ (r : Fin n) (c : Fin v), i = ix2 r c := ⟨i 0, i 1, eq_ix2 i⟩
  have hH : AllReal (hidden₂ x A W₁ b₁ W₂ b₂) := AllReal.hidden₂ hx hA hW₁ hb₁ hW₂ hb₂
  have hLv : AllReal (logits A (mm (hidden₂ x A W₁ b₁ W₂ b₂) W₃) (asRow b₃)) := hA.logits (hH.mm hW₃) hb₃.asRow
  have hpad := logits_padded hw A W₃ b₃ (hidden₂ x A W₁ b₁ W₂ b₂)
  -- the masked maximum is the narrow maximum
  have hmax : rowMax v (logits A (mm (hidden₂ x A W₁ b₁ W₂ b₂) (padCols w W₃)) (padCols w (asRow b₃))) r
      = rowMaxAll (logits A (mm (hidden₂ x A W₁ b₁ W₂ b₂) W₃) (asRow b₃)) r := by
    unfold rowMax rowMaxAll
    rw [max_masked hw]
    exact congrArg (fun g => (Finset.univ : Finset (Fin v)).fold max ⊥ g) (funext fun c' => hpad r c')
  -- the masked sum of exponentials is the narrow sum
  have hsum : rowSumExp v (logits A (mm (hidden₂ x A W₁ b₁ W₂ b₂) (padCols w W₃)) (padCols w (asRow b₃))) r
      = ∑ j : Fin v, Ideal.exp (logits A (mm (hidden₂ x A W₁ b₁ W₂ b₂) W₃) (asRow b₃) (ix2 r j)
          - rowMaxAll (logits A (mm (hidden₂ x A W₁ b₁ W₂ b₂) W₃) (asRow b₃)) r) := by
    unfold rowSumExp
    rw [sum_masked hw, hmax]
    exact Finset.sum_congr rfl fun c' _ => by rw [hpad r c']
  show logSoftmaxWide v _ (ix2 r (Fin.castLE hw c)) = logSoftmax _ (ix2 r c)
  rw [logSoftmaxWide_apply, logSoftmax_apply, hsum, hmax, hpad r c]
  obtain ⟨a, ha⟩ := hLv (ix2 r c)
  obtain ⟨m, hm⟩ : IsReal (rowMaxAll (logits A (mm (hidden₂ x A W₁ b₁ W₂ b₂) W₃) (asRow b₃)) r) :=
    isReal_fold_max hv _ fun c' => hLv (ix2 r c')
  rw [ha, hm]
  exact sub_add_real a m _

end Agree

end Cert.Gcn

end
-- ==== Proof.Finite.lean ====
/-
  The precondition read as mathematics: every entry of every argument is a real number.

  The precondition takes, for each argument, the conjunction over all entries of `|entry| < +∞`, and the conjunction of
  the eight. An extended real whose absolute value is below `+∞` is neither infinity, hence a real number.
-/
import proofs.«147260_g4776003633739_cont_sun_c4_135_2_alg».proof.Pre_finite_inputs
import proofs.«147260_g4776003633739_cont_sun_c4_135_2_alg».proof.Proof.Gen.Pre_finite_inputs
import proofs.«147260_g4776003633739_cont_sun_c4_135_2_alg».proof.Proof.Spec
import Idealize.ShloMosaic.Lib.ReduceAll
import Idealize.ShloMosaic.Lib.ValueIdx

noncomputable section

namespace Cert.Finite

open Idealize.ShloMosaic Idealize.ShloMosaic.ValueIdx Cert.Pre_finite_inputs

/-- The rank-zero shape has exactly one index. -/
local instance subsingleton_scalar_idx : Subsingleton S_.Idx := ⟨fun a b => funext fun d => d.elim0⟩

/-- The single-precision pattern with all exponent bits set and no fraction bits is plus infinity. -/
theorem inf_eq_top : Ideal.ofBits .f32 0x7F800000#32 = (⊤ : EReal) := by
  simp [Ideal.ofBits, Ideal.ieee]

/-- An extended real whose absolute value lies strictly below plus infinity is a real number. -/
theorem isReal_of_abs_lt (a : EReal)
    (h : Ideal.cmp .olt (max a (-a)) (Ideal.ofBits .f32 0x7F800000#32) = 1#1) : Cert.Gcn.IsReal a := by
  rw [inf_eq_top] at h
  induction a using EReal.rec with
  | bot => simp [Ideal.cmp] at h
  | coe r => exact ⟨r, rfl⟩
  | top => simp [Ideal.cmp] at h

/-- If the conjunction over all entries of "absolute value below infinity" is true, every entry is real. -/
theorem allReal_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ix0 = 1#1) : Cert.Gcn.AllReal x := by
  intro i
  have hi := Host.reduce_andi_all _ _ hr hu ix0 e i
  exact isReal_of_abs_lt (x i) hi

/-- Where the precondition holds, every entry of every argument is a real number. -/
theorem args_real (x0 : FVec Ideal S10000x128 .f32) (x1 : FVec Ideal S10000x10000 .f32) (x2 : FVec Ideal S128x128 .f32)
    (x3 : FVec Ideal S128 .f32) (x4 : FVec Ideal S128x64 .f32) (x5 : FVec Ideal S64 .f32) (x6 : FVec Ideal S64x3 .f32)
    (x7 : FVec Ideal S3 .f32)
    (h : Cert.Pre_finite_inputs.fn (F := Ideal) x0 x1 x2 x3 x4 x5 x6 x7 = fun _ => 1#1) :
    Cert.Gcn.AllReal x0 ∧ Cert.Gcn.AllReal x1 ∧ Cert.Gcn.AllReal x2 ∧ Cert.Gcn.AllReal x3 ∧ Cert.Gcn.AllReal x4
      ∧ Cert.Gcn.AllReal x5 ∧ Cert.Gcn.AllReal x6 ∧ Cert.Gcn.AllReal x7 := by
  have h0 := congrFun h ix0
  dsimp only [fn, fn_part1, fn_part2, andi] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨allReal_of_all x0 _ _ _ e0, allReal_of_all x1 _ _ _ e1, allReal_of_all x2 _ _ _ e2,
    allReal_of_all x3 _ _ _ e3, allReal_of_all x4 _ _ _ e4, allReal_of_all x5 _ _ _ e5,
    allReal_of_all x6 _ _ _ e6, allReal_of_all x7 _ _ _ e7⟩

end Cert.Finite

end
-- ==== Proof.LibPlainMatmul.lean ====
/-
  A plain matrix product read at one entry, over the extended reals.

  For the dimension numbers of an `M×K` by `K×N` product (`DotDims.plain M K N`: the left operand contracted on its
  second axis, the right on its first, no batch axis) the product accumulated into the zero splat has, at row `r` and
  column `c`, the entry `∑ k, lhs (r, k) * rhs (k, c)`: the contraction index, a one-axis multi-index, is re-indexed
  by its one coordinate `k : Fin K`, and the operand indices the dimension numbers compute are `(r, k)` and `(k, c)`.
  Stated for every `M`, `K`, `N`, with the indices built by `ix2`.
-/
import Idealize.ShloMosaic.Lib.ValueIdx
import Idealize.ShloMosaic.PureOps.Ideal.Laws

noncomputable section

namespace Cert.Lib.PlainMatmul

open Idealize.ShloMosaic Idealize.ShloMosaic.ValueIdx

variable {M K N : Nat}

/-- The left operand's row coordinate is the result's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction index's one coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction index's one coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- THE ENTRY: an `M×K` by `K×N` product into the zero accumulator, at `(r, c)`, is the sum over `k` of
    `lhs (r, k) * rhs (k, c)` — no rounding, no order, whatever the operands' formats and the precision hint. -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun a => Fin.ext (by
      match a with
      | ⟨0, _⟩ => exact (rhs_row _ _).trans hk
      | ⟨1, _⟩ => exact rhs_col _ _)
  rw [el, er]

end Cert.Lib.PlainMatmul

end
-- ==== Proof.LibPlainDot.lean ====
/-
  The host's plain matrix product read at one entry, over the extended reals.

  On the host a `dot_general` with the dimension numbers of an `M×K` by `K×N` product (`DotDims.plain M K N`) is, over the
  extended reals, the same exact sum as a kernel's product into the zero accumulator: at row `r` and column `c` the entry
  `∑ k, lhs (r, k) * rhs (k, c)`. The contraction index is re-indexed by its one coordinate `k : Fin K`; the operand
  indices the dimension numbers compute are `(r, k)` and `(k, c)` (the four coordinate facts of the kernel-side file).
  Stated for every `M`, `K`, `N`, with the indices built by `ix2`.
-/
import Idealize.ShloMosaic.Lib.ValueIdx
import Idealize.ShloMosaic.PureOps.Ideal.Laws
import proofs.«147260_g4776003633739_cont_sun_c4_135_2_alg».proof.Proof.LibPlainMatmul

noncomputable section

namespace Cert.Lib.PlainDot

open Idealize.ShloMosaic Idealize.ShloMosaic.ValueIdx Cert.Lib.PlainMatmul

variable {M K N : Nat}

/-- THE ENTRY of the host's product: at `(r, c)` the sum over `k` of `lhs (r, k) * rhs (k, c)`, whatever the operands'
    formats and the precision hint. -/
theorem dotGeneral_apply {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) := by
  show FloatOps.dotGeneral (DotDims.plain M K N) prec .single lhs rhs (ix2 r c) = _
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun a => Fin.ext (by
      match a with
      | ⟨0, _⟩ => exact (rhs_row _ _).trans hk
      | ⟨1, _⟩ => exact rhs_col _ _)
  rw [el, er]

end Cert.Lib.PlainDot

end
-- ==== Proof.RefValue.lean ====
/-
  The reference program's result term read as the network in its narrow spelling.

  Each host matrix product is the exact sum of exact products; a bias laid as a row and repeated down the rows adds
  the bias entry of the column; the positive part is the maximum with zero; the log-softmax subtracts the row maximum
  (a fold of the maximum from minus infinity along the row), exponentiates, sums along the row from zero, takes the
  logarithm and subtracts it.
-/
import proofs.«147260_g4776003633739_cont_sun_c4_135_2_alg».proof.Proof.RefRun
import proofs.«147260_g4776003633739_cont_sun_c4_135_2_alg».proof.Proof.Spec
import proofs.«147260_g4776003633739_cont_sun_c4_135_2_alg».proof.Proof.LibPlainDot
import Idealize.ShloMosaic.Lib.Pipeline.Value
import Idealize.ShloMosaic.Lib.ValueLayout

noncomputable section

namespace Cert.ReferenceIdeal.RefValue

open Cert.ReferenceIdeal Cert.ReferenceIdeal.Gen Idealize.ShloMosaic Idealize.ShloMosaic.TcCoe Idealize.SL.Sem Idealize.ShloMosaic.ValueIdx

/-! The pieces of the program read at one entry, then the layers, then the whole network. -/

/-- The word of minus infinity is the bottom element of the extended reals. -/
theorem negInf : Ideal.ofBits .f32 0xFF800000#32 = ⊥ := by simp [Ideal.ofBits, Ideal.ieee]

/-- A scalar repeated over a whole shape, read anywhere, is the scalar's one entry. -/
theorem splat_apply {t : Shape} (h : S_.BroadcastsInDim t (![] : Fin 0 → Fin t.rank)) (x : S_.Idx → EReal) (j : t.Idx) :
    broadcastInDim t ![] h x j = x ix0 :=
  broadcastInDim_apply _ h x j ix0 fun a => a.elim0

/-- The positive part, taken as the maximum with the zero scalar repeated over the shape. -/
theorem relu_apply {t : Shape} (h : S_.BroadcastsInDim t (![] : Fin 0 → Fin t.rank)) (x : FVec Ideal t .f32) (j : t.Idx) :
    maximumf x (broadcastInDim t ![] h (constant S_ .f32 0x00000000#32)) j = max (x j) 0 := by
  rw [maximumf_apply, splat_apply, constant_apply, Ideal.ofBits_zero_f32]

/-- The host's plain product is the matrix product of the specification. -/
theorem dot_eq_mm {M K N : Nat} (l : FVec Ideal ⟨2, ![M, K]⟩ .f32) (r : FVec Ideal ⟨2, ![K, N]⟩ .f32) :
    Host.dotGeneral (DotDims.plain M K N) none l r = Cert.Gcn.mm l r := by
  funext i
  obtain ⟨r', c, rfl⟩ : ∃ (r' : Fin M) (c : Fin N), i = ix2 r' c := ⟨i 0, i 1, eq_ix2 i⟩
  exact Cert.Lib.PlainDot.dotGeneral_apply none l r r' c

/-- A vector laid as one row and repeated down the rows, read at an entry: the vector at the column. -/
theorem bias_apply {n h : Nat} (h1 : (⟨1, ![h]⟩ : Shape).BroadcastsInDim ⟨2, ![1, h]⟩ ![1])
    (h2 : (⟨2, ![1, h]⟩ : Shape).BroadcastsInDim ⟨2, ![n, h]⟩ ![0, 1]) (b : (⟨1, ![h]⟩ : Shape).Idx → EReal) (r : Fin n) (c : Fin h) :
    broadcastInDim ⟨2, ![n, h]⟩ ![0, 1] h2 (broadcastInDim ⟨2, ![1, h]⟩ ![1] h1 b) (ix2 r c) = b (ix1 c) := by
  refine (broadcastInDim_apply _ h2 _ (ix2 r c) (ix2 (0 : Fin 1) c) fun a => ?_).trans ?_
  · match a with
    | ⟨0, _⟩ => rfl
    | ⟨1, _⟩ =>
      show c.val = if h = 1 then 0 else c.val
      split
      · have := c.isLt; omega
      · rfl
  · refine broadcastInDim_apply _ h1 _ _ (ix1 c) fun a => ?_
    match a with
    | ⟨0, _⟩ =>
      show c.val = if h = 1 then 0 else c.val
      split
      · have := c.isLt; omega
      · rfl

/-- A vector of row values laid as one column and repeated across the columns, read at an entry: the row's value. -/
theorem rowval_apply {n w : Nat} (h1 : (⟨1, ![n]⟩ : Shape).BroadcastsInDim ⟨2, ![n, 1]⟩ ![0])
    (h2 : (⟨2, ![n, 1]⟩ : Shape).BroadcastsInDim ⟨2, ![n, w]⟩ ![0, 1]) (v : (⟨1, ![n]⟩ : Shape).Idx → EReal) (r : Fin n) (c : Fin w) :
    broadcastInDim ⟨2, ![n, w]⟩ ![0, 1] h2 (broadcastInDim ⟨2, ![n, 1]⟩ ![0] h1 v) (ix2 r c) = v (ix1 r) := by
  refine (broadcastInDim_apply _ h2 _ (ix2 r c) (ix2 r (0 : Fin 1)) fun a => ?_).trans ?_
  · match a with
    | ⟨0, _⟩ =>
      show r.val = if n = 1 then 0 else r.val
      split
      · have := r.isLt; omega
      · rfl
    | ⟨1, _⟩ => rfl
  · refine broadcastInDim_apply _ h1 _ _ (ix1 r) fun a => ?_
    match a with
    | ⟨0, _⟩ =>
      show r.val = if n = 1 then 0 else r.val
      split
      · have := r.isLt; omega
      · rfl

/-- A column of row values repeated across the columns, read at an entry: the column's value in that row. -/
theorem colrep_apply {n w : Nat} (h2 : (⟨2, ![n, 1]⟩ : Shape).BroadcastsInDim ⟨2, ![n, w]⟩ ![0, 1])
    (v : (⟨2, ![n, 1]⟩ : Shape).Idx → EReal) (r : Fin n) (c : Fin w) :
    broadcastInDim ⟨2, ![n, w]⟩ ![0, 1] h2 v (ix2 r c) = v (ix2 r (0 : Fin 1)) := by
  refine broadcastInDim_apply _ h2 _ (ix2 r c) (ix2 r (0 : Fin 1)) fun a => ?_
  match a with
  | ⟨0, _⟩ =>
    show r.val = if n = 1 then 0 else r.val
    split
    · have := r.isLt; omega
    · rfl
  | ⟨1, _⟩ => rfl

/-- A vector of row values laid as one column, read at an entry: the row's value. -/
theorem ascol_apply {n : Nat} (h1 : (⟨1, ![n]⟩ : Shape).BroadcastsInDim ⟨2, ![n, 1]⟩ ![0])
    (v : (⟨1, ![n]⟩ : Shape).Idx → EReal) (r : Fin n) (u : Fin 1) :
    broadcastInDim ⟨2, ![n, 1]⟩ ![0] h1 v (ix2 r u) = v (ix1 r) := by
  refine broadcastInDim_apply _ h1 _ _ (ix1 r) fun a => ?_
  match a with
  | ⟨0, _⟩ =>
    show r.val = if n = 1 then 0 else r.val
    split
    · have := r.isLt; omega
    · rfl

/-- Dropping the column axis of the logits' shape leaves the rows. -/
theorem red : S10000x3.Reduces [1] S10000 := by decide

/-- Row r with column k put back is the entry (r, k). -/
theorem lift_eq (r : Fin 10000) (k : Fin 3) : red.lift (ix1 r) k = ix2 r k := by
  funext a
  match a with
  | ⟨0, _⟩ => rfl
  | ⟨1, _⟩ => rfl

/-- The row maximum as the program takes it: the maximum with minus infinity of the fold of the maximum,
    from minus infinity, along the row. -/
theorem rowmax_apply (H : FVec Ideal S10000x3 .f32) (r : Fin 10000) :
    maximumf (broadcastInDim S10000 ![] bcast_S_S10000 (constant S_ .f32 0xFF800000#32))
      (Host.reduce FloatOps.maximumf H (constant S_ .f32 0xFF800000#32) reducesTo_S10000x3_S10000_d1 h_S_) (ix1 r)
      = Cert.Gcn.rowMaxAll H r := by
  rw [maximumf_apply, splat_apply, constant_apply, negInf, max_eq_right bot_le,
    Host.reduce_eq_fold_single FloatOps.maximumf H _ reducesTo_S10000x3_S10000_d1 red h_S_, constant_apply, negInf]
  show (Finset.univ : Finset (Fin 3)).fold max ⊥ (H ∘ red.lift (ix1 r)) = _
  unfold Cert.Gcn.rowMaxAll
  exact congrArg (fun g : Fin 3 → EReal => (Finset.univ : Finset (Fin 3)).fold max ⊥ g)
    (funext fun k => congrArg H (lift_eq r k))

/-- The row sum as the program takes it: zero plus the sum along the row. -/
theorem rowsum_apply (E : FVec Ideal S10000x3 .f32) (r : Fin 10000) :
    Host.reduceAdd E (constant S_ .f32 0x00000000#32) reducesTo_S10000x3_S10000_d1 h_S_ (ix1 r)
      = ∑ k : Fin 3, E (ix2 r k) := by
  show Ideal.hostReduceAdd reducesTo_S10000x3_S10000_d1 E (Ideal.ofBits .f32 0x00000000#32) (ix1 r) = _
  rw [Ideal.hostReduceAdd_single reducesTo_S10000x3_S10000_d1 red, Ideal.ofBits_zero_f32, zero_add]
  exact Finset.sum_congr rfl fun k _ => congrArg E (lift_eq r k)

/-- The last stage over any logits: subtract the row maximum, then the logarithm of the row sum of exponentials. -/
theorem logSoftmax_eq (H : FVec Ideal S10000x3 .f32) :
    subf (subf H (broadcastInDim S10000x3 ![0, 1] bcast_S10000x1_S10000x3_0_1 (broadcastInDim S10000x1 ![0] bcast_S10000_S10000x1_0
        (maximumf (broadcastInDim S10000 ![] bcast_S_S10000 (constant S_ .f32 0xFF800000#32))
          (Host.reduce FloatOps.maximumf H (constant S_ .f32 0xFF800000#32) reducesTo_S10000x3_S10000_d1 h_S_)))))
      (broadcastInDim S10000x3 ![0, 1] bcast_S10000x1_S10000x3_0_1 (Host.log (broadcastInDim S10000x1 ![0] bcast_S10000_S10000x1_0
        (Host.reduceAdd (Host.exp (subf H (broadcastInDim S10000x3 ![0, 1] bcast_S10000x1_S10000x3_0_1
          (broadcastInDim S10000x1 ![0] bcast_S10000_S10000x1_0
            (maximumf (broadcastInDim S10000 ![] bcast_S_S10000 (constant S_ .f32 0xFF800000#32))
              (Host.reduce FloatOps.maximumf H (constant S_ .f32 0xFF800000#32) reducesTo_S10000x3_S10000_d1 h_S_))))))
          (constant S_ .f32 0x00000000#32) reducesTo_S10000x3_S10000_d1 h_S_))))
      = Cert.Gcn.logSoftmax H := by
  funext i
  obtain ⟨r, c, rfl⟩ : ∃ (r : Fin 10000) (c : Fin 3), i = ix2 r c := ⟨i 0, i 1, eq_ix2 i⟩
  have hshift : ∀ k : Fin 3, subf H (broadcastInDim S10000x3 ![0, 1] bcast_S10000x1_S10000x3_0_1
      (broadcastInDim S10000x1 ![0] bcast_S10000_S10000x1_0
        (maximumf (broadcastInDim S10000 ![] bcast_S_S10000 (constant S_ .f32 0xFF800000#32))
          (Host.reduce FloatOps.maximumf H (constant S_ .f32 0xFF800000#32) reducesTo_S10000x3_S10000_d1 h_S_)))) (ix2 r k)
      = H (ix2 r k) - Cert.Gcn.rowMaxAll H r := fun k => by
    rw [subf_apply, rowval_apply, rowmax_apply]
  rw [Cert.Gcn.logSoftmax_apply, subf_apply, hshift c, colrep_apply]
  refine congrArg (fun z => H (ix2 r c) - Cert.Gcn.rowMaxAll H r - z) ?_
  show Ideal.log _ = _
  refine congrArg Ideal.log ?_
  rw [ascol_apply, rowsum_apply]
  refine Finset.sum_congr rfl fun k _ => ?_
  show Ideal.exp _ = _
  exact congrArg Ideal.exp (hshift k)

/-- One graph layer before the positive part: the adjacency product plus the bias row. -/
theorem logits_eq {n h : Nat} (h1 : (⟨1, ![h]⟩ : Shape).BroadcastsInDim ⟨2, ![1, h]⟩ ![1])
    (h2 : (⟨2, ![1, h]⟩ : Shape).BroadcastsInDim ⟨2, ![n, h]⟩ ![0, 1])
    (A : FVec Ideal ⟨2, ![n, n]⟩ .f32) (S : FVec Ideal ⟨2, ![n, h]⟩ .f32) (b : FVec Ideal ⟨1, ![h]⟩ .f32) :
    addf (Host.dotGeneral (DotDims.plain n n h) none A S)
        (broadcastInDim ⟨2, ![n, h]⟩ ![0, 1] h2 (broadcastInDim ⟨2, ![1, h]⟩ ![1] h1 b))
      = Cert.Gcn.logits A S (Cert.Gcn.asRow b) := by
  funext i
  obtain ⟨r, c, rfl⟩ : ∃ (r : Fin n) (c : Fin h), i = ix2 r c := ⟨i 0, i 1, eq_ix2 i⟩
  rw [addf_apply, bias_apply, Cert.Gcn.logits_apply, Cert.Gcn.asRow_apply]
  exact congrArg (· + b (ix1 c)) (Cert.Lib.PlainDot.dotGeneral_apply none A S r c)

/-- One hidden graph layer: the positive part of the adjacency product plus the bias row. -/
theorem hidden_eq {n h : Nat} (h0 : S_.BroadcastsInDim ⟨2, ![n, h]⟩ (![] : Fin 0 → Fin 2))
    (h1 : (⟨1, ![h]⟩ : Shape).BroadcastsInDim ⟨2, ![1, h]⟩ ![1])
    (h2 : (⟨2, ![1, h]⟩ : Shape).BroadcastsInDim ⟨2, ![n, h]⟩ ![0, 1])
    (A : FVec Ideal ⟨2, ![n, n]⟩ .f32) (S : FVec Ideal ⟨2, ![n, h]⟩ .f32) (b : FVec Ideal ⟨1, ![h]⟩ .f32) :
    maximumf (addf (Host.dotGeneral (DotDims.plain n n h) none A S)
        (broadcastInDim ⟨2, ![n, h]⟩ ![0, 1] h2 (broadcastInDim ⟨2, ![1, h]⟩ ![1] h1 b)))
      (broadcastInDim ⟨2, ![n, h]⟩ ![] h0 (constant S_ .f32 0x00000000#32))
      = Cert.Gcn.hidden A S (Cert.Gcn.asRow b) := by
  rw [logits_eq]
  funext i
  exact relu_apply h0 _ i

/-- The program's six dimension records are those of plain products: rows by contraction times contraction by columns. -/
theorem dims_xW₁ : dot_S10000x128_S128x128_S10000x128_1_0_0_1_n_n = DotDims.plain 10000 128 128 := rfl
theorem dims_A₁ : dot_S10000x10000_S10000x128_S10000x128_1_0_0_1_n_n = DotDims.plain 10000 10000 128 := rfl
theorem dims_hW₂ : dot_S10000x128_S128x64_S10000x64_1_0_0_1_n_n = DotDims.plain 10000 128 64 := rfl
theorem dims_A₂ : dot_S10000x10000_S10000x64_S10000x64_1_0_0_1_n_n = DotDims.plain 10000 10000 64 := rfl
theorem dims_hW₃ : dot_S10000x64_S64x3_S10000x3_1_0_0_1_n_n = DotDims.plain 10000 64 3 := rfl
theorem dims_A₃ : dot_S10000x10000_S10000x3_S10000x3_1_0_0_1_n_n = DotDims.plain 10000 10000 3 := rfl

/-- The reference's result term, over the extended reals, is the network in its narrow spelling. -/
theorem result_eq (m : (ℓ : Loc nD τ sig) → Buf (Elt Ideal) ℓ) (c : Dev nD) :
    Cert.ReferenceIdeal.ValueP.res_main_v17 (F := Ideal) m c
      = Cert.Gcn.narrowOut (n := 10000) (f := 128) (h₁ := 128) (h₂ := 64) (v := 3)
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.ValueP.res_main_v17
  rw [dims_xW₁, dims_A₁, dims_hW₂, dims_A₂, dims_hW₃, dims_A₃]
  rw [hidden_eq, hidden_eq, logits_eq, dot_eq_mm, dot_eq_mm, dot_eq_mm, logSoftmax_eq]
  rfl

end Cert.ReferenceIdeal.RefValue

end
-- ==== Proof.LibScatterSet.lean ====
/-
  A host scatter whose body returns the update (an array's `.at[…].set(…)`), read at one index.

  The host scatter walks the update's indices in row-major order; each update index `j` lands at the operand index
  `resultIdx? j idx` (the start index read off the scatter indices plus `j`'s window coordinates) or is dropped when
  that leaves the operand, and with the body `fun _ b => b` a landing update overwrites the entry. So the result at `i`
  is the update at any `j` that lands on `i`, provided every update landing on `i` carries the same value (in
  particular when the landing map is injective), and the operand's own entry where no update lands. `resultIdx?` itself
  is `some i` as soon as start plus window coordinate is `i`'s coordinate on every axis.
-/
import Idealize.ShloMosaic.PureOps.ShapeOps
import Idealize.ShloMosaic.PureOps.Dims

namespace Cert.Lib.ScatterSet

open Idealize.ShloMosaic

variable {α κ ι : Type}

/-- A fold of steps leaves an entry as it was when no step's key lands on it (a step whose key does not land on
    `i` keeps entry `i`). -/
theorem foldl_miss (step : (ι → α) → κ → (ι → α)) (tgt : κ → Option ι) (i : ι)
    (hkeep : ∀ r k, tgt k ≠ some i → step r k i = r i) :
    ∀ (L : List κ) (x : ι → α), (∀ k ∈ L, tgt k ≠ some i) → L.foldl step x i = x i
  | [], _, _ => rfl
  | k :: L, x, h => by
    rw [List.foldl_cons, foldl_miss step tgt i hkeep L _ fun k' hk' => h k' (List.mem_cons_of_mem _ hk')]
    exact hkeep x k (h k List.mem_cons_self)

/-- A fold of overwriting steps: an entry some step's key lands on holds that step's value, when every step landing
    there carries the same value (a step whose key lands on `i` writes its value there, another keeps entry `i`). -/
theorem foldl_hit (step : (ι → α) → κ → (ι → α)) (tgt : κ → Option ι) (val : κ → α) (i : ι)
    (hwrite : ∀ r k, tgt k = some i → step r k i = val k) (hkeep : ∀ r k, tgt k ≠ some i → step r k i = r i) :
    ∀ (L : List κ) (x : ι → α) (k₀ : κ), k₀ ∈ L → tgt k₀ = some i → (∀ k ∈ L, tgt k = some i → val k = val k₀) →
      L.foldl step x i = val k₀
  | [], _, _, h, _, _ => absurd h List.not_mem_nil
  | k :: L, x, k₀, hmem, h₀, hsame => by
    rw [List.foldl_cons]
    by_cases hL : ∃ k' ∈ L, tgt k' = some i
    · obtain ⟨k', hk', ht'⟩ := hL
      rw [foldl_hit step tgt val i hwrite hkeep L _ k' hk' ht' fun k'' hk'' ht'' =>
        (hsame k'' (List.mem_cons_of_mem _ hk'') ht'').trans (hsame k' (List.mem_cons_of_mem _ hk') ht').symm]
      exact hsame k' (List.mem_cons_of_mem _ hk') ht'
    · have hmiss : ∀ k' ∈ L, tgt k' ≠ some i := fun k' hk' ht' => hL ⟨k', hk', ht'⟩
      rw [foldl_miss step tgt i hkeep L _ hmiss]
      have hk : k₀ = k := by
        rcases List.mem_cons.mp hmem with e | e
        · exact e
        · exact absurd h₀ (hmiss k₀ e)
      subst hk
      exact hwrite x k₀ h₀

variable {s si u : Shape} {w : Nat}

/-- The landing index is `i` when start plus window coordinate is `i`'s coordinate on every axis. -/
theorem resultIdx?_eq_some (d : ScatterDims s si u) (j : u.Idx) (idx : IVec si w) (i : s.Idx)
    (h : ∀ a, d.start j idx a + (d.window j a : Int) = ((i a).val : Int)) : d.resultIdx? j idx = some i := by
  unfold ScatterDims.resultIdx?
  have hin : ∀ a, 0 ≤ d.start j idx a + (d.window j a : Int) ∧ d.start j idx a + (d.window j a : Int) < (s.size a : Int) := fun a => by
    rw [h a]; have := (i a).isLt; omega
  rw [dif_pos hin]
  refine congrArg some (funext fun a => Fin.ext ?_)
  show (d.start j idx a + (d.window j a : Int)).toNat = (i a).val
  rw [h a]; rfl

/-- THE ENTRY an update lands on: the update's value, when every update landing there carries the same value. -/
theorem scatter_set_hit (d : ScatterDims s si u) (x : s.Idx → α) (idx : IVec si w) (upd : u.Idx → α) (j₀ : u.Idx) (i : s.Idx)
    (h₀ : d.resultIdx? j₀ idx = some i) (hsame : ∀ j, d.resultIdx? j idx = some i → upd j = upd j₀) :
    Host.scatter d (fun _ b => b) x idx upd i = upd j₀ := by
  unfold Host.scatter
  have key := foldl_hit (α := α)
    (fun (r : s.Idx → α) (n : Fin u.numel) =>
      match d.resultIdx? (u.rowMajor.symm n) idx with
      | some i => fun i' => if i' = i then (fun _ b => b) (r i) (upd (u.rowMajor.symm n)) else r i'
      | none => r)
    (fun n : Fin u.numel => d.resultIdx? (u.rowMajor.symm n) idx) (fun n => upd (u.rowMajor.symm n)) i
    (fun r n hn => by simp only [hn, if_true])
    (fun r n hn => by
      generalize d.resultIdx? (u.rowMajor.symm n) idx = o at hn ⊢
      cases o with
      | none => rfl
      | some i₀ =>
        show (if i = i₀ then _ else r i) = r i
        rw [if_neg (fun e => hn (by rw [e]))])
    (List.finRange u.numel) x (u.rowMajor j₀) (List.mem_finRange _)
    (by rw [Equiv.symm_apply_apply]; exact h₀)
    (fun n _ hn => by rw [Equiv.symm_apply_apply]; exact hsame _ hn)
  rw [Equiv.symm_apply_apply] at key
  exact key

/-- AN ENTRY no update lands on keeps the operand's value. -/
theorem scatter_set_miss (d : ScatterDims s si u) (f : α → α → α) (x : s.Idx → α) (idx : IVec si w) (upd : u.Idx → α) (i : s.Idx)
    (h : ∀ j, d.resultIdx? j idx ≠ some i) : Host.scatter d f x idx upd i = x i := by
  unfold Host.scatter
  exact foldl_miss (α := α)
    (fun (r : s.Idx → α) (n : Fin u.numel) =>
      match d.resultIdx? (u.rowMajor.symm n) idx with
      | some i => fun i' => if i' = i then f (r i) (upd (u.rowMajor.symm n)) else r i'
      | none => r)
    (fun n : Fin u.numel => d.resultIdx? (u.rowMajor.symm n) idx) i
    (fun r n hn => by
      generalize d.resultIdx? (u.rowMajor.symm n) idx = o at hn ⊢
      cases o with
      | none => rfl
      | some i₀ =>
        show (if i = i₀ then _ else r i) = r i
        rw [if_neg (fun e => hn (by rw [e]))])
    (List.finRange u.numel) x fun n _ => h _

end Cert.Lib.ScatterSet
-- ==== Proof.HostOps.lean ====
/-
  The host operations between the launches, read as mathematics: a bias vector reshaped to one row is that vector as a
  one-row matrix; a weight matrix (or a bias row) written into the first columns of a zero matrix is the matrix padded
  with zero columns; the result's slice keeps the first columns.
-/
import proofs.«147260_g4776003633739_cont_sun_c4_135_2_alg».proof.KernelIdeal
import proofs.«147260_g4776003633739_cont_sun_c4_135_2_alg».proof.Proof.Gen.KernelIdeal
import proofs.«147260_g4776003633739_cont_sun_c4_135_2_alg».proof.Proof.Spec
import proofs.«147260_g4776003633739_cont_sun_c4_135_2_alg».proof.Proof.LibScatterSet
import Idealize.ShloMosaic.Lib.Pipeline.Value
import Idealize.ShloMosaic.Lib.ValueLayout
import Idealize.ShloMosaic.PureOps.Ideal.Laws

noncomputable section

namespace Cert.KernelIdeal.HostOps

open Cert.KernelIdeal Cert.KernelIdeal.Facts₀ Idealize.ShloMosaic Idealize.ShloMosaic.ValueIdx Cert.Gcn Cert.Lib.ScatterSet

/-! ## Writing a `64 × 3` matrix into the first columns of a `64 × 128` zero matrix -/

section PadMatrix

variable (idx : IVec S1 32) (hidx : ∀ k, idx k = 0#32)

include hidx in
/-- Every start index is zero: the scatter indices are all zero. -/
theorem start_mat (j : S64x3.Idx) (a : Fin 2) : scatter_S64x128_S1_S64x3_01_n_1_0.start j idx a = 0 := by
  unfold ScatterDims.start
  split
  · rw [hidx]; rfl
  · rfl

include hidx in
/-- Update entry `(l, q)` lands at `(l, q)`. -/
theorem land_mat (l : Fin 64) (q : Fin 3) :
    scatter_S64x128_S1_S64x3_01_n_1_0.resultIdx? (ix2 l q) idx = some (ix2 l (Fin.castLE (by decide : 3 ≤ 128) q)) := by
  refine resultIdx?_eq_some _ _ _ _ fun a => ?_
  rw [start_mat idx hidx, zero_add]
  match a with
  | ⟨0, _⟩ =>
    exact congrArg Nat.cast (show scatter_S64x128_S1_S64x3_01_n_1_0.window (ix2 l q) (0 : Fin 2) = l.val by
      unfold ScatterDims.window; rfl)
  | ⟨1, _⟩ =>
    exact congrArg Nat.cast (show scatter_S64x128_S1_S64x3_01_n_1_0.window (ix2 l q) (1 : Fin 2) = q.val by
      unfold ScatterDims.window; rfl)

include hidx in
/-- The padded weight matrix: the operand's columns first, zero columns after. -/
theorem scatter_mat (W : FVec Ideal S64x3 .f32) :
    Host.scatter scatter_S64x128_S1_S64x3_01_n_1_0 (fun _ b => b)
        (broadcastInDim S64x128 ![] bcast_S_S64x128 (constant (F := Ideal) S_ .f32 0x00000000#32)) idx W
      = padCols (K := 64) (v := 3) 128 W := by
  funext i
  obtain ⟨l, c, rfl⟩ : ∃ (l : Fin 64) (c : Fin 128), i = ix2 l c := ⟨i 0, i 1, eq_ix2 i⟩
  rw [padCols_apply]
  by_cases hc : c.val < 3
  · rw [dif_pos hc]
    have hcast : Fin.castLE (by decide : 3 ≤ 128) (⟨c.val, hc⟩ : Fin 3) = c := Fin.ext rfl
    refine scatter_set_hit _ _ _ _ (ix2 l ⟨c.val, hc⟩) (ix2 l c) (by rw [land_mat idx hidx, hcast]) fun j hj => ?_
    obtain ⟨l', q', rfl⟩ : ∃ (l' : Fin 64) (q' : Fin 3), j = ix2 l' q' := ⟨j 0, j 1, eq_ix2 j⟩
    rw [land_mat idx hidx] at hj
    have e := Option.some.inj hj
    have e0 : l' = l := congrFun e 0
    have e1 : (Fin.castLE (by decide : 3 ≤ 128) q').val = c.val := congrArg Fin.val (congrFun e 1)
    subst e0
    exact congrArg W (congrArg (ix2 l') (Fin.ext e1))
  · rw [dif_neg hc]
    refine (scatter_set_miss _ _ _ _ _ _ fun j hj => ?_).trans ?_
    · obtain ⟨l', q', rfl⟩ : ∃ (l' : Fin 64) (q' : Fin 3), j = ix2 l' q' := ⟨j 0, j 1, eq_ix2 j⟩
      rw [land_mat idx hidx] at hj
      have e1 : (Fin.castLE (by decide : 3 ≤ 128) q').val = c.val := congrArg Fin.val (congrFun (Option.some.inj hj) 1)
      have : q'.val = c.val := e1
      have := q'.isLt
      omega
    · show Ideal.ofBits .f32 0x00000000#32 = 0
      exact Ideal.ofBits_zero_f32

end PadMatrix

/-! ## Writing a vector of `3` into the first lanes of a `1 × 128` zero row -/

section PadRow

variable (idx : IVec S2 32) (hidx : ∀ k, idx k = 0#32)

include hidx in
/-- Every start index is zero. -/
theorem start_row (j : S3.Idx) (a : Fin 2) : scatter_S1x128_S2_S3_0_0_01_0.start j idx a = 0 := by
  unfold ScatterDims.start
  split
  · rw [hidx]; rfl
  · rfl

include hidx in
/-- Update entry `q` lands at `(0, q)`. -/
theorem land_row (q : Fin 3) :
    scatter_S1x128_S2_S3_0_0_01_0.resultIdx? (ix1 q) idx = some (ix2 (0 : Fin 1) (Fin.castLE (by decide : 3 ≤ 128) q)) := by
  refine resultIdx?_eq_some _ _ _ _ fun a => ?_
  rw [start_row idx hidx, zero_add]
  match a with
  | ⟨0, _⟩ =>
    exact congrArg Nat.cast (show scatter_S1x128_S2_S3_0_0_01_0.window (ix1 q) (0 : Fin 2) = 0 by
      unfold ScatterDims.window; rfl)
  | ⟨1, _⟩ =>
    exact congrArg Nat.cast (show scatter_S1x128_S2_S3_0_0_01_0.window (ix1 q) (1 : Fin 2) = q.val by
      unfold ScatterDims.window; rfl)

include hidx in
/-- The padded bias row: the vector's entries first, zeros after. -/
theorem scatter_row (b : FVec Ideal S3 .f32) :
    Host.scatter scatter_S1x128_S2_S3_0_0_01_0 (fun _ b => b)
        (broadcastInDim S1x128 ![] bcast_S_S1x128 (constant (F := Ideal) S_ .f32 0x00000000#32)) idx b
      = padCols (K := 1) (v := 3) 128 (asRow (h := 3) b) := by
  funext i
  obtain ⟨u, c, rfl⟩ : ∃ (u : Fin 1) (c : Fin 128), i = ix2 u c := ⟨i 0, i 1, eq_ix2 i⟩
  have hu : u = 0 := Subsingleton.elim _ _
  subst hu
  rw [padCols_apply]
  by_cases hc : c.val < 3
  · rw [dif_pos hc, asRow_apply]
    have hcast : Fin.castLE (by decide : 3 ≤ 128) (⟨c.val, hc⟩ : Fin 3) = c := Fin.ext rfl
    refine scatter_set_hit _ _ _ _ (ix1 ⟨c.val, hc⟩) (ix2 0 c) (by rw [land_row idx hidx, hcast]) fun j hj => ?_
    obtain ⟨q', rfl⟩ : ∃ q' : Fin 3, j = ix1 q' := ⟨j 0, eq_ix1 j⟩
    rw [land_row idx hidx] at hj
    have e1 : (Fin.castLE (by decide : 3 ≤ 128) q').val = c.val := congrArg Fin.val (congrFun (Option.some.inj hj) 1)
    exact congrArg b (congrArg ix1 (Fin.ext e1))
  · rw [dif_neg hc]
    refine (scatter_set_miss _ _ _ _ _ _ fun j hj => ?_).trans ?_
    · obtain ⟨q', rfl⟩ : ∃ q' : Fin 3, j = ix1 q' := ⟨j 0, eq_ix1 j⟩
      rw [land_row idx hidx] at hj
      have e1 : (Fin.castLE (by decide : 3 ≤ 128) q').val = c.val := congrArg Fin.val (congrFun (Option.some.inj hj) 1)
      have : q'.val = c.val := e1
      have := q'.isLt
      omega
    · show Ideal.ofBits .f32 0x00000000#32 = 0
      exact Ideal.ofBits_zero_f32

end PadRow

/-- The scatter indices of the matrix write: one zero. -/
theorem idx_mat_zero (k : S1.Idx) : (broadcastInDim S1 ![] bcast_S_S1 (constantI S_ 32 0#32) : IVec S1 32) k = 0#32 := rfl

/-- The scatter indices of the row write: two zeros, concatenated. -/
theorem idx_row_zero (k : S2.Idx) :
    (concatenate S2 0 [⟨S1, (broadcastInDim S1 ![] bcast_S_S1 (constantI S_ 32 0#32) : IVec S1 32)⟩,
        ⟨S1, (broadcastInDim S1 ![] bcast_S_S1 (constantI S_ 32 0#32) : IVec S1 32)⟩] concatenates_S1_S1_S2_d0 : IVec S2 32) k = 0#32 := by
  obtain ⟨q, rfl⟩ : ∃ q : Fin 2, k = ix1 q := ⟨k 0, eq_ix1 k⟩
  match q with
  | ⟨0, _⟩ =>
    refine (concatenate_pair_apply_left (0 : Fin S2.rank) _ _ concatenates_S1_S1_S2_d0 _ rfl (ix1 (0 : Fin 1)) fun b => ?_).trans rfl
    match b with
    | ⟨0, _⟩ => rfl
  | ⟨1, _⟩ =>
    refine (concatenate_pair_apply_right (0 : Fin S2.rank) _ _ concatenates_S1_S1_S2_d0 _ rfl rfl (ix1 (0 : Fin 1)) (fun b hb => ?_) ?_).trans rfl
    · match b with
      | ⟨0, _⟩ => exact absurd rfl hb
    · rfl

/-! ## A vector reshaped to one row, and the slice of the first columns -/

/-- A vector of `h` entries cast to `1 × h` is the vector as a one-row matrix. -/
theorem reshape_row {h : Nat} (b : (⟨1, ![h]⟩ : Shape).Idx → EReal) (hc : (⟨1, ![h]⟩ : Shape).ShapeCasts ⟨2, ![1, h]⟩) :
    shapeCast ⟨2, ![1, h]⟩ b hc = asRow b := by
  funext i
  obtain ⟨u, c, rfl⟩ : ∃ (u : Fin 1) (c : Fin h), i = ix2 u c := ⟨i 0, i 1, eq_ix2 i⟩
  rw [asRow_apply]
  exact shapeCast_a_1a_apply b hc u c

/-- The slice of the first three columns of a `10000 × 128` matrix at `(r, q)` is the matrix at `(r, q)`. -/
theorem slice_apply (X : FVec Ideal S10000x128 .f32) (r : Fin 10000) (q : Fin 3) :
    extractStridedSlice S10000x3 ![0, 0] X slices_S10000x128_S10000x3_0_0 (ix2 r q)
      = X (ix2 r (Fin.castLE (by decide : 3 ≤ 128) q)) :=
  extractStridedSlice_apply _ X _ (ix2 r q) (ix2 r (Fin.castLE (by decide : 3 ≤ 128) q)) fun a => by
    match a with
    | ⟨0, _⟩ => show r.val = 0 + r.val; omega
    | ⟨1, _⟩ => show q.val = 0 + q.val; omega

end Cert.KernelIdeal.HostOps

end
-- ==== Proof.Region0.lean ====
/-
  The first launch: the support `x · W₁`.

  The grid has ten points; point `t` loads rows `1000 t … 1000 t + 999` of `x` and the whole of `W₁`, multiplies them
  (an exact sum of exact products over the extended reals; narrowing the float format afterwards is the identity) and
  writes the product back as the same rows of the result. The ten row blocks tile the result, so after the launch the
  result array is the matrix product of the two arrays the launch found.
-/
import proofs.«147260_g4776003633739_cont_sun_c4_135_2_alg».proof.Proof.Gen.KernelIdeal.Frame
import proofs.«147260_g4776003633739_cont_sun_c4_135_2_alg».proof.Proof.Spec
import proofs.«147260_g4776003633739_cont_sun_c4_135_2_alg».proof.Proof.LibPlainMatmul
import Idealize.ShloMosaic.Lib.Pipeline.Value
import Idealize.ShloMosaic.Lib.ValueLayout

noncomputable section

namespace Cert.KernelIdeal.Region0

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offset of a block that fills its buffer. -/
theorem hz : (![0, 0] : Fin 2 → Nat) = fun _ => 0 := funext fun a => by fin_cases a <;> rfl

/-- The dimension numbers of the body's product are those of an ordinary `1000×128` by `128×128` product:
    the left operand contracted on its columns, the right on its rows, no batch axis. -/
theorem dims_plain : dot_S1000x128_S128x128_S1000x128_1_0_0_1_n_n = DotDims.plain 1000 128 128 := rfl

/-- The body's value at row `p`, column `q` of its block: the row of the `x` block against the column of `W₁`,
    summed over the 128 shared coordinates (the accumulator starts at zero, and narrowing the float format
    changes nothing over the extended reals). -/
theorem pay_apply (x0 : Vec Ideal S1000x128 .f32) (x1 : Vec Ideal S128x128 .f32) (p : Fin 1000) (q : Fin 128) :
    k0_pay1 (F := Ideal) x0 x1 (ix2 p q) = ∑ k : Fin 128, x0 (ix2 p k) * x1 (ix2 k q) := by
  unfold k0_pay1
  show FloatOps.matmul (φ₁ := .f32) (φ₂ := .f32) dot_S1000x128_S128x128_S1000x128_1_0_0_1_n_n none x0 x1 (constant (F := Ideal) S1000x128 .f32 0x00000000#32) (ix2 p q) = _
  rw [dims_plain]
  exact Cert.Lib.PlainMatmul.matmul_zero_apply (φ₁ := .f32) (φ₂ := .f32) none x0 x1 p q

/-- The block indices at grid point `t`: the blocks of `x` and of the result are the `t`-th block of rows,
    the block of `W₁` is always the first (and only) one. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature matrix `x`, `10000×128`, as the launch finds it. -/
abbrev xarr (c : Dev nD) : Cert.Gcn.Mat 10000 128 := V c main_arg0
/-- The first weight matrix `W₁`, `128×128`, as the launch finds it. -/
abbrev warr (c : Dev nD) : Cert.Gcn.Mat 128 128 := V c main_arg2

/-- The whole result as one function of the two arrays: the product `x · W₁`. -/
abbrev G (c : Dev nD) : Cert.Gcn.Mat 10000 128 := Cert.Gcn.mm (xarr V c) (warr V c)

/-- Row `p` of the `x` block at point `t` is row `1000 t + p` of `x`. -/
theorem iblk_x (c : Dev nD) (t : Fin cfg0.N) (p : Fin 1000) (k : Fin 128) :
    (iblk0 V c 0 t : Vec Ideal S1000x128 .f32) (ix2 p k)
      = xarr V c (ix2 ⟨t.val * 1000 + p.val, by have := t.isLt; have : cfg0.N = 10 := N_0; omega⟩ k) := by
  obtain ⟨e0, e1, -⟩ := idx_facts t
  unfold iblk0
  rw [View.read_apply]
  show V c main_arg0 (((cfg0.win 0).blk t).view.emb (ix2 p k)) = V c main_arg0 _
  congr 1
  funext a
  apply Fin.ext
  match a with
  | ⟨0, _⟩ => show win0_0.index t (0 : Fin 2) * 1000 + 1 * p.val = t.val * 1000 + p.val; rw [e0]; omega
  | ⟨1, _⟩ => show win0_0.index t (1 : Fin 2) * 128 + 1 * k.val = k.val; rw [e1]; omega

/-- The `W₁` block at every point is the whole of `W₁`. -/
theorem iblk_w (c : Dev nD) (t : Fin cfg0.N) (k : Fin 128) (q : Fin 128) :
    (iblk0 V c 1 t : Vec Ideal S128x128 .f32) (ix2 k q) = warr V c (ix2 k q) := by
  obtain ⟨-, -, e2, e3, -⟩ := idx_facts t
  unfold iblk0
  rw [View.read_apply]
  show V c main_arg2 (((cfg0.win 1).blk t).view.emb (ix2 k q)) = V c main_arg2 _
  congr 1
  funext a
  apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- Entry `(p, q)` of the result block at point `t` sits at `(1000 t + p, q)` in the result array. -/
theorem blk_emb (t : Fin cfg0.N) (p : Fin 1000) (q : Fin 128) (ht : t.val * 1000 + p.val < 10000) :
    ((cfg0.win 2).blk t).view.emb (ix2 p q) = (ix2 ⟨t.val * 1000 + p.val, ht⟩ q : S10000x128.Idx) := by
  obtain ⟨-, -, -, -, e4, e5⟩ := idx_facts t
  funext a
  apply Fin.ext
  match a with
  | ⟨0, _⟩ => show win0_2.index t (0 : Fin 2) * 1000 + 1 * p.val = t.val * 1000 + p.val; rw [e4]; omega
  | ⟨1, _⟩ => show win0_2.index t (1 : Fin 2) * 128 + 1 * q.val = q.val; rw [e5]; omega

/-- What point `t` writes back is rows `1000 t … 1000 t + 999` of `x · W₁`: the body multiplies those rows of `x`
    by the whole of `W₁`, and a row of a product depends only on the same row of the left factor. -/
theorem flushed_eq (c : Dev nD) (t : Fin cfg0.N) :
    (dat0 (F := Ideal) V c).flushed 2 t = ((cfg0.win 2).blk t).view.read (Elt Ideal) (G V c) := by
  show (cfg0.win 2).cut (grid0.coords t) ((dat0 (F := Ideal) V c).after 2 t) = _
  rw [after0_2]
  unfold out0_2
  rw [View.canon_unit_zero hz]
  simp only [View.ld_unit_zero (S := S1000x128) hz, View.ld_unit_zero (S := S128x128) hz]
  funext j
  obtain ⟨p, q, rfl⟩ : ∃ (p : Fin 1000) (q : Fin 128), j = ix2 p q := ⟨j 0, j 1, eq_ix2 j⟩
  have ht : t.val * 1000 + p.val < 10000 := by have := t.isLt; have : cfg0.N = 10 := N_0; omega
  refine (pay_apply _ _ p q).trans ?_
  rw [View.read_apply]
  show _ = G V c (((cfg0.win 2).blk t).view.emb (ix2 p q))
  rw [blk_emb t p q ht]
  show _ = Cert.Gcn.mm (xarr V c) (warr V c) (ix2 ⟨t.val * 1000 + p.val, ht⟩ q)
  rw [Cert.Gcn.mm_apply]
  refine Finset.sum_congr rfl fun k _ => ?_
  rw [iblk_x, iblk_w]

/-- An index of the result array lies in point `t`'s block iff each coordinate lies in the block's range on its axis. -/
theorem mem_blk (t : Fin cfg0.N) (i : S10000x128.Idx) :
    i ∈ ((cfg0.win 2).blk t).view.set ↔ ∀ a : Fin 2, win0_2.index t a * S1000x128.size a ≤ (i a).val ∧ (i a).val < win0_2.index t a * S1000x128.size a + S1000x128.size a := by
  show i ∈ ((View.whole main_v0).slice (win0_2.rect t)).set ↔ _
  rw [View.set_slice_whole, Rect.mem_set_unit]
  exact Iff.rfl

/-- The ten row blocks tile the result: row `r` belongs to the block of point `r / 1000`, which is written back. -/
theorem cover (i : S10000x128.Idx) :
    ∃ t : Fin cfg0.N, (cfg0.win 2).flush t = true ∧ i ∈ ((cfg0.win 2).blk t).view.set := by
  have hi0 : (i 0).val < 10000 := (i 0).isLt
  have hi1 : (i 1).val < 128 := (i 1).isLt
  have hN : cfg0.N = 10 := N_0
  let t : Fin cfg0.N := ⟨(i 0).val / 1000, by omega⟩
  obtain ⟨-, -, -, -, e4, e5⟩ := idx_facts t
  have e4' : win0_2.index t (0 : Fin 2) = (i 0).val / 1000 := e4
  refine ⟨t, flush0_2 t, ?_⟩
  rw [mem_blk]
  intro a
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 128 ≤ (i 1).val ∧ (i 1).val < win0_2.index t (1 : Fin 2) * 128 + 128; omega

/-- After the first launch the support array holds the product `x · W₁`. -/
theorem final (c : Dev nD) :
    (dat0 (F := Ideal) V c).arrAt 2 cfg0.N
      = Cert.Gcn.mm (M := 10000) (K := 128) (N := 128) (V c main_arg0) (V c main_arg2) :=
  (dat0 (F := Ideal) V c).arrAt_eq_of_cover 2 (G V c) (fun t _ => flushed_eq V c t) cover

end Cert.KernelIdeal.Region0

end
-- ==== Proof.Region1.lean ====
/-
  The second launch: one graph layer fused with the next weight, `relu (A · S + b) · W`, and a copy of `A`.

  The grid has fifty points; point `t` loads rows `200 t … 200 t + 199` of the adjacency matrix `A` and the whole of
  the support `S`, of the bias row `b` and of the weight `W`. It writes the loaded rows of `A` back into a second
  array (in a narrower float format, which over the extended reals is the identity), and the rows of
  `relu (A · S + b) · W` into its first result. The fifty row blocks tile both results.
-/
import proofs.«147260_g4776003633739_cont_sun_c4_135_2_alg».proof.Proof.Gen.KernelIdeal.Frame
import proofs.«147260_g4776003633739_cont_sun_c4_135_2_alg».proof.Proof.Spec
import proofs.«147260_g4776003633739_cont_sun_c4_135_2_alg».proof.Proof.LibPlainMatmul
import Idealize.ShloMosaic.Lib.Pipeline.Value
import Idealize.ShloMosaic.Lib.ValueLayout

noncomputable section

namespace Cert.KernelIdeal.Region1

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The blocks of the second launch

Its grid has 50 points. At point `t` the adjacency window holds rows `200 t … 200 t + 199` of the
`10000 × 10000` matrix, the support, the bias row and the weight are whole, and the two result windows hold rows
`200 t … 200 t + 199` of their arrays. -/

/-- The offsets of a whole-block access are all zero. -/
theorem zero_offsets : (![0, 0] : Fin 2 → Nat) = fun _ => 0 := funext fun a => by fin_cases a <;> rfl

/-- The block index of every window at every point of the grid: `(t, 0)` for the adjacency and the two results,
    `(0, 0)` for the three whole operands. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-! ## One entry of the computed block -/

/-- Entry `(p, q)` of the block the body computes from a `200 × 10000` block `x0`, the support `x1`, the bias
    row `x2` and the weight `x3`: `∑ₖ max (∑ₗ x0 (p, l) · x1 (l, k) + x2 (0, k)) 0 · x3 (k, q)`. Both products
    accumulate into zero, the bias row is repeated over the 200 rows, the changes of float format are the identity. -/
theorem layer_block_entry (x0 : Vec Ideal S200x10000 .f32) (x1 : Vec Ideal S10000x128 .bf16) (x2 : Vec Ideal S1x128 .f32)
    (x3 : Vec Ideal S128x64 .f32) (p : Fin 200) (q : Fin 64) :
    k1_pay2 x0 x1 x2 x3 (ix2 p q)
      = ∑ k : Fin 128, max ((∑ l : Fin 10000, x0 (ix2 p l) * x1 (ix2 l k)) + x2 (ix2 (0 : Fin 1) k)) 0 * x3 (ix2 k q) := by
  unfold k1_pay2
  -- the outer product, into zero
  refine (Cert.Lib.PlainMatmul.matmul_zero_apply (M := 200) (K := 128) (N := 64) (φ₁ := .f32) (φ₂ := .f32) none _ x3 p q).trans ?_
  refine Finset.sum_congr rfl fun k _ => ?_
  refine congrArg (· * x3 (ix2 k q)) ?_
  -- the two reshapes keep the shape
  rw [shapeCast_self, shapeCast_self]
  -- the maximum with the zero word, of the inner product plus the repeated bias row
  show max (FloatOps.matmul (DotDims.plain 200 10000 128) none (k1_pay1 x0) x1 (constant (F := Ideal) ⟨2, ![200, 128]⟩ .f32 0x00000000#32) (ix2 p k)
      + broadcastTo S200x128 x2 broadcasts_S1x128_S200x128 (ix2 p k)) (Ideal.ofBits .f32 0x00000000#32) = _
  rw [Ideal.ofBits_zero_f32, Cert.Lib.PlainMatmul.matmul_zero_apply, broadcastTo_1b_ab_apply]
  rfl

/-! ## Each operand's block as entries of its array

A block's coordinate on an axis is (block index) × (block size) + the coordinate inside the block. -/

/-- Row `p` of the adjacency block at point `t` is row `200 t + p` of the adjacency matrix. -/
theorem adj_block_read (c : Dev nD) (t : Fin cfg1.N) (p : Fin 200) (l : Fin 10000) (r : Fin 10000)
    (hr : r.val = t.val * 200 + p.val) :
    (iblk1 V c 0 t : Vec Ideal S200x10000 .f32) (ix2 p l) = (V c main_arg1 : Cert.Gcn.Mat 10000 10000) (ix2 r l) := by
  obtain ⟨e00, e01, e10, e11, e20, e21, e30, e31, e40, e41, e50, e51⟩ := block_indices t
  unfold iblk1
  rw [View.read_apply]
  show (V c main_arg1 : Cert.Gcn.Mat 10000 10000) _ = _
  refine congrArg _ ?_
  funext a; apply Fin.ext
  match a with
  | ⟨0, _⟩ => show win1_0.index t (0 : Fin 2) * 200 + 1 * p.val = r.val; omega
  | ⟨1, _⟩ => show win1_0.index t (1 : Fin 2) * 10000 + 1 * l.val = l.val; omega

/-- The support's block is the whole support at every point. -/
theorem support_block_read (c : Dev nD) (t : Fin cfg1.N) (l : Fin 10000) (k : Fin 128) :
    (iblk1 V c 1 t : Vec Ideal S10000x128 .bf16) (ix2 l k) = (V c main_v0 : Cert.Gcn.Mat 10000 128) (ix2 l k) := by
  obtain ⟨e00, e01, e10, e11, e20, e21, e30, e31, e40, e41, e50, e51⟩ := block_indices t
  unfold iblk1
  rw [View.read_apply]
  show (V c main_v0 : Cert.Gcn.Mat 10000 128) _ = _
  refine congrArg _ ?_
  funext a; apply Fin.ext
  match a with
  | ⟨0, _⟩ => show win1_1.index t (0 : Fin 2) * 10000 + 1 * l.val = l.val; omega
  | ⟨1, _⟩ => show win1_1.index t (1 : Fin 2) * 128 + 1 * k.val = k.val; omega

/-- The bias row's block is the whole row at every point. -/
theorem bias_block_read (c : Dev nD) (t : Fin cfg1.N) (u : Fin 1) (k : Fin 128) :
    (iblk1 V c 2 t : Vec Ideal S1x128 .f32) (ix2 u k) = (V c main_v1 : Cert.Gcn.Mat 1 128) (ix2 u k) := by
  obtain ⟨e00, e01, e10, e11, e20, e21, e30, e31, e40, e41, e50, e51⟩ := block_indices t
  unfold iblk1
  rw [View.read_apply]
  show (V c main_v1 : Cert.Gcn.Mat 1 128) _ = _
  refine congrArg _ ?_
  funext a; apply Fin.ext
  match a with
  | ⟨0, _⟩ => show win1_2.index t (0 : Fin 2) * 1 + 1 * u.val = u.val; omega
  | ⟨1, _⟩ => show win1_2.index t (1 : Fin 2) * 128 + 1 * k.val = k.val; omega

/-- The weight's block is the whole weight at every point. -/
theorem weight_block_read (c : Dev nD) (t : Fin cfg1.N) (k : Fin 128) (q : Fin 64) :
    (iblk1 V c 3 t : Vec Ideal S128x64 .f32) (ix2 k q) = (V c main_arg4 : Cert.Gcn.Mat 128 64) (ix2 k q) := by
  obtain ⟨e00, e01, e10, e11, e20, e21, e30, e31, e40, e41, e50, e51⟩ := block_indices t
  unfold iblk1
  rw [View.read_apply]
  show (V c main_arg4 : Cert.Gcn.Mat 128 64) _ = _
  refine congrArg _ ?_
  funext a; apply Fin.ext
  match a with
  | ⟨0, _⟩ => show win1_3.index t (0 : Fin 2) * 128 + 1 * k.val = k.val; omega
  | ⟨1, _⟩ => show win1_3.index t (1 : Fin 2) * 64 + 1 * q.val = q.val; omega

/-! ## The first result: `relu (A · S + b) · W`, row block by row block -/

/-- What point `t` writes back to the first result is rows `200 t … 200 t + 199` of `relu (A · S + b) · W`:
    row `200 t + p` of the product only reads row `200 t + p` of `A`, which is row `p` of the point's block. -/
theorem written_sup (c : Dev nD) (t : Fin cfg1.N) :
    (dat1 (F := Ideal) V c).flushed 4 t = ((cfg1.win 4).blk t).view.read (Elt Ideal)
      (Cert.Gcn.mm (M := 10000) (K := 128) (N := 64)
        (Cert.Gcn.hidden (n := 10000) (h := 128) (V c main_arg1) (V c main_v0) (V c main_v1)) (V c main_arg4)) := by
  show (cfg1.win 4).cut (grid1.coords t) ((dat1 V c).after 4 t) = _
  rw [after1_4]
  unfold out1_4
  rw [View.canon_unit_zero zero_offsets]
  simp only [View.ld_unit_zero (S := S200x10000) zero_offsets, View.ld_unit_zero (S := S10000x128) zero_offsets,
    View.ld_unit_zero (S := S1x128) zero_offsets, View.ld_unit_zero (S := S128x64) zero_offsets]
  obtain ⟨e00, e01, e10, e11, e20, e21, e30, e31, e40, e41, e50, e51⟩ := block_indices t
  have hN : cfg1.N = 50 := N_1
  have htN : t.val < 50 := hN ▸ t.isLt
  funext j
  obtain ⟨p, q, rfl⟩ : ∃ (p : Fin 200) (q : Fin 64), j = ix2 p q := ⟨j 0, j 1, eq_ix2 j⟩
  have hr : t.val * 200 + p.val < 10000 := by have := p.isLt; omega
  -- entry (p, q) of the block is entry (200 t + p, q) of the array
  have hemb : ((cfg1.win 4).blk t).view.emb (ix2 p q) = ix2 (⟨t.val * 200 + p.val, hr⟩ : Fin 10000) q := by
    funext a; apply Fin.ext
    match a with
    | ⟨0, _⟩ => show win1_4.index t (0 : Fin 2) * 200 + 1 * p.val = t.val * 200 + p.val; omega
    | ⟨1, _⟩ => show win1_4.index t (1 : Fin 2) * 64 + 1 * q.val = q.val; omega
  show k1_pay2 (iblk1 V c 0 t) (iblk1 V c 1 t) (iblk1 V c 2 t) (iblk1 V c 3 t) (ix2 p q)
    = Cert.Gcn.mm (M := 10000) (K := 128) (N := 64)
        (Cert.Gcn.hidden (n := 10000) (h := 128) (V c main_arg1) (V c main_v0) (V c main_v1)) (V c main_arg4)
        (((cfg1.win 4).blk t).view.emb (ix2 p q))
  rw [hemb, Cert.Gcn.mm_apply]
  refine (layer_block_entry _ _ _ _ p q).trans ?_
  -- term by term in the outer sum, then in the inner one
  refine Finset.sum_congr rfl fun k _ => ?_
  rw [Cert.Gcn.hidden_apply, weight_block_read V c t k q, bias_block_read V c t 0 k]
  refine congrArg (fun s => max (s + (V c main_v1 : Cert.Gcn.Mat 1 128) (ix2 (0 : Fin 1) k)) 0
    * (V c main_arg4 : Cert.Gcn.Mat 128 64) (ix2 k q)) ?_
  refine Finset.sum_congr rfl fun l _ => ?_
  rw [adj_block_read V c t p l ⟨t.val * 200 + p.val, hr⟩ rfl, support_block_read V c t l k]

/-- An entry of the first result is in point `t`'s block iff each coordinate is in the block's range on its axis. -/
theorem mem_sup_block (t : Fin cfg1.N) (i : S10000x64.Idx) :
    i ∈ ((cfg1.win 4).blk t).view.set ↔ ∀ a : Fin 2, win1_4.index t a * S200x64.size a ≤ (i a).val
      ∧ (i a).val < win1_4.index t a * S200x64.size a + S200x64.size a := by
  show i ∈ ((View.whole main_v2_0).slice (win1_4.rect t)).set ↔ _
  rw [View.set_slice_whole, Rect.mem_set_unit]
  exact Iff.rfl

/-- The 50 row blocks tile the first result: row `r` is in the block of point `r / 200`. -/
theorem sup_blocks_cover (i : S10000x64.Idx) :
    ∃ t : Fin cfg1.N, (cfg1.win 4).flush t = true ∧ i ∈ ((cfg1.win 4).blk t).view.set := by
  have hN : cfg1.N = 50 := N_1
  have hi0 : (i 0).val < 10000 := (i 0).isLt
  have hi1 : (i 1).val < 64 := (i 1).isLt
  have ht : (i 0).val / 200 < cfg1.N := by omega
  obtain ⟨e00, e01, e10, e11, e20, e21, e30, e31, e40, e41, e50, e51⟩ := block_indices ⟨(i 0).val / 200, ht⟩
  refine ⟨⟨(i 0).val / 200, ht⟩, flush1_4 _, ?_⟩
  rw [mem_sup_block]
  intro a
  match a with
  | ⟨0, _⟩ =>
    show win1_4.index ⟨(i 0).val / 200, ht⟩ (0 : Fin 2) * 200 ≤ (i 0).val
      ∧ (i 0).val < win1_4.index ⟨(i 0).val / 200, ht⟩ (0 : Fin 2) * 200 + 200
    simp only [] at e40; omega
  | ⟨1, _⟩ =>
    show win1_4.index ⟨(i 0).val / 200, ht⟩ (1 : Fin 2) * 64 ≤ (i 1).val
      ∧ (i 1).val < win1_4.index ⟨(i 0).val / 200, ht⟩ (1 : Fin 2) * 64 + 64
    omega

/-- After the second launch its first result array holds `relu (A · S + b) · W` of the arrays the launch found. -/
theorem final_sup (c : Dev nD) :
    (dat1 (F := Ideal) V c).arrAt 4 cfg1.N
      = Cert.Gcn.mm (M := 10000) (K := 128) (N := 64)
          (Cert.Gcn.hidden (n := 10000) (h := 128) (V c main_arg1) (V c main_v0) (V c main_v1)) (V c main_arg4) :=
  (dat1 V c).arrAt_eq_of_cover 4 _ (fun t _ => written_sup V c t) sup_blocks_cover

/-! ## The second result: the adjacency matrix itself -/

/-- What point `t` writes back to the second result is rows `200 t … 200 t + 199` of the adjacency matrix: the
    block it read, in another float format, which changes nothing here. -/
theorem written_adj (c : Dev nD) (t : Fin cfg1.N) :
    (dat1 (F := Ideal) V c).flushed 5 t
      = ((cfg1.win 5).blk t).view.read (Elt Ideal) (V c main_arg1 : Cert.Gcn.Mat 10000 10000) := by
  show (cfg1.win 5).cut (grid1.coords t) ((dat1 V c).after 5 t) = _
  rw [after1_5]
  unfold out1_5
  rw [View.canon_unit_zero zero_offsets]
  simp only [View.ld_unit_zero (S := S200x10000) zero_offsets]
  obtain ⟨e00, e01, e10, e11, e20, e21, e30, e31, e40, e41, e50, e51⟩ := block_indices t
  funext j
  -- the input block and the output block sit at the same rows
  show (V c main_arg1 : Cert.Gcn.Mat 10000 10000) (((cfg1.win 0).blk t).view.emb j)
    = (V c main_arg1 : Cert.Gcn.Mat 10000 10000) (((cfg1.win 5).blk t).view.emb j)
  refine congrArg _ ?_
  funext a; apply Fin.ext
  match a with
  | ⟨0, _⟩ => show win1_0.index t (0 : Fin 2) * 200 + 1 * (j 0).val = win1_5.index t (0 : Fin 2) * 200 + 1 * (j 0).val; omega
  | ⟨1, _⟩ => show win1_0.index t (1 : Fin 2) * 10000 + 1 * (j 1).val = win1_5.index t (1 : Fin 2) * 10000 + 1 * (j 1).val; omega

/-- An entry of the second result is in point `t`'s block iff each coordinate is in the block's range on its axis. -/
theorem mem_adj_block (t : Fin cfg1.N) (i : S10000x10000.Idx) :
    i ∈ ((cfg1.win 5).blk t).view.set ↔ ∀ a : Fin 2, win1_5.index t a * S200x10000.size a ≤ (i a).val
      ∧ (i a).val < win1_5.index t a * S200x10000.size a + S200x10000.size a := by
  show i ∈ ((View.whole main_v2_1).slice (win1_5.rect t)).set ↔ _
  rw [View.set_slice_whole, Rect.mem_set_unit]
  exact Iff.rfl

/-- The 50 row blocks tile the second result: row `r` is in the block of point `r / 200`. -/
theorem adj_blocks_cover (i : S10000x10000.Idx) :
    ∃ t : Fin cfg1.N, (cfg1.win 5).flush t = true ∧ i ∈ ((cfg1.win 5).blk t).view.set := by
  have hN : cfg1.N = 50 := N_1
  have hi0 : (i 0).val < 10000 := (i 0).isLt
  have hi1 : (i 1).val < 10000 := (i 1).isLt
  have ht : (i 0).val / 200 < cfg1.N := by omega
  obtain ⟨e00, e01, e10, e11, e20, e21, e30, e31, e40, e41, e50, e51⟩ := block_indices ⟨(i 0).val / 200, ht⟩
  refine ⟨⟨(i 0).val / 200, ht⟩, flush1_5 _, ?_⟩
  rw [mem_adj_block]
  intro a
  match a with
  | ⟨0, _⟩ =>
    show win1_5.index ⟨(i 0).val / 200, ht⟩ (0 : Fin 2) * 200 ≤ (i 0).val
      ∧ (i 0).val < win1_5.index ⟨(i 0).val / 200, ht⟩ (0 : Fin 2) * 200 + 200
    simp only [] at e50; omega
  | ⟨1, _⟩ =>
    show win1_5.index ⟨(i 0).val / 200, ht⟩ (1 : Fin 2) * 10000 ≤ (i 1).val
      ∧ (i 1).val < win1_5.index ⟨(i 0).val / 200, ht⟩ (1 : Fin 2) * 10000 + 10000
    omega

/-- … and its second result array holds the adjacency matrix itself (a change of float format is the identity). -/
theorem final_adj (c : Dev nD) :
    (dat1 (F := Ideal) V c).arrAt 5 cfg1.N = (V c main_arg1 : Cert.Gcn.Mat 10000 10000) :=
  (dat1 V c).arrAt_eq_of_cover 5 (V c main_arg1 : Cert.Gcn.Mat 10000 10000) (fun t _ => written_adj V c t) adj_blocks_cover

end Cert.KernelIdeal.Region1

end
-- ==== Proof.Region2.lean ====
/-
  The third launch: one graph layer fused with the next weight, `relu (A · S + b) · W`.

  The grid has twenty-five points; point `t` loads rows `400 t … 400 t + 399` of the adjacency matrix `A` and the whole
  of the support `S`, of the bias row `b` and of the weight `W`, and writes the same rows of `relu (A · S + b) · W`
  back. The twenty-five row blocks tile the result.
-/
import proofs.«147260_g4776003633739_cont_sun_c4_135_2_alg».proof.Proof.Gen.KernelIdeal.Frame
import proofs.«147260_g4776003633739_cont_sun_c4_135_2_alg».proof.Proof.Spec
import proofs.«147260_g4776003633739_cont_sun_c4_135_2_alg».proof.Proof.LibPlainMatmul
import Idealize.ShloMosaic.Lib.Pipeline.Value
import Idealize.ShloMosaic.Lib.ValueLayout

noncomputable section

namespace Cert.KernelIdeal.Region2

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## One block's arithmetic, entry by entry

The body multiplies a 400-row block of the adjacency matrix by the whole support matrix, adds the bias row to every
row, takes the positive part, and multiplies by the weight matrix. Over the extended reals both products are exact
sums of exact products, and changing the number format of an entry does nothing. -/

/-- The dimension numbers of the first product are the plain ones: the left factor is contracted along its
    columns, the right one along its rows, and there is no batch axis. -/
theorem dotA_plain : dot_S400x10000_S10000x64_S400x64_1_0_0_1_n_n = DotDims.plain 400 10000 64 := rfl

/-- The same for the second product. -/
theorem dotB_plain : dot_S400x64_S64x128_S400x128_1_0_0_1_n_n = DotDims.plain 400 64 128 := rfl

/-- Entry `(p, q)` of what the body stores, from the four blocks it loads: the sum over the 64 hidden columns `k` of
    `max (∑ l, x0 (p, l) * x1 (l, k) + x2 (0, k)) 0 * x3 (k, q)`. The casts to the same shape are identities, the
    bias row is read at column `k` whatever the row, and the zero the maximum is taken against is the number `0`. -/
theorem pay_apply (x0 : Vec Ideal S400x10000 .bf16) (x1 : Vec Ideal S10000x64 .bf16) (x2 : Vec Ideal S1x64 .f32)
    (x3 : Vec Ideal S64x128 .f32) (p : Fin 400) (q : Fin 128) :
    k2_pay1 (F := Ideal) x0 x1 x2 x3 (ix2 p q)
      = ∑ k : Fin 64, max ((∑ l : Fin 10000, x0 (ix2 p l) * x1 (ix2 l k)) + x2 (ix2 (0 : Fin 1) k)) 0 * x3 (ix2 k q) := by
  unfold k2_pay1
  simp only [shapeCast_self]
  rw [truncf_apply, dotB_plain]
  refine (Cert.Lib.PlainMatmul.matmul_zero_apply none _ _ p q).trans ?_
  refine Finset.sum_congr rfl fun k _ => ?_
  congr 1
  rw [maximumf_apply, addf_apply, broadcast_apply, broadcastTo_1b_ab_apply, dotA_plain]
  exact congrArg₂ max (congrArg₂ (· + ·) (Cert.Lib.PlainMatmul.matmul_zero_apply none x0 x1 p k) rfl) Ideal.ofBits_zero_f32

/-! ## The blocks as parts of the arrays

At grid point `t` the adjacency block is rows `400 t … 400 t + 399` of the adjacency matrix, all columns; the support,
the bias row and the weight matrix are taken whole at every point; the output block is rows `400 t … 400 t + 399` of
the result. A block's coordinate on an axis is always (block index) × (block size) + (coordinate inside the block). -/

/-- Both spellings of the zero offsets. -/
theorem hz : (![0, 0] : Fin 2 → Nat) = fun _ => 0 := funext fun a => by fin_cases a <;> rfl

/-- The block indices of the five windows at every one of the 25 grid points: `(t, 0)` for the adjacency block and for
    the output block, `(0, 0)` for the three arrays taken whole. Decided once over the grid. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Entry `(p, l)` of the adjacency block at point `t` is entry `(400 t + p, l)` of the adjacency matrix. -/
theorem blk0_apply (c : Dev nD) (t : Fin cfg2.N) (p : Fin 400) (l : Fin 10000) (r : Fin 10000)
    (hr : r.val = t.val * 400 + p.val) :
    (iblk2 V c 0 t : Vec Ideal S400x10000 .bf16) (ix2 p l) = (V c main_v2_1 : S10000x10000.Idx → EReal) (ix2 r l) := by
  obtain ⟨e0, e1, -⟩ := idx_facts t
  unfold iblk2
  rw [View.read_apply]
  show V c main_v2_1 _ = V c main_v2_1 _
  congr 1
  funext a
  apply Fin.ext
  match a with
  | ⟨0, _⟩ => show win2_0.index t (0 : Fin 2) * 400 + 1 * p.val = r.val; rw [e0, hr]; omega
  | ⟨1, _⟩ => show win2_0.index t (1 : Fin 2) * 10000 + 1 * l.val = l.val; rw [e1]; omega

/-- The support matrix is taken whole: its block at any point is the matrix itself, entry by entry. -/
theorem blk1_apply (c : Dev nD) (t : Fin cfg2.N) (l : Fin 10000) (k : Fin 64) :
    (iblk2 V c 1 t : Vec Ideal S10000x64 .bf16) (ix2 l k) = (V c main_v2_0 : S10000x64.Idx → EReal) (ix2 l k) := by
  obtain ⟨-, -, e0, e1, -⟩ := idx_facts t
  unfold iblk2
  rw [View.read_apply]
  show V c main_v2_0 _ = V c main_v2_0 _
  congr 1
  funext a
  apply Fin.ext
  match a with
  | ⟨0, _⟩ => show win2_1.index t (0 : Fin 2) * 10000 + 1 * l.val = l.val; rw [e0]; omega
  | ⟨1, _⟩ => show win2_1.index t (1 : Fin 2) * 64 + 1 * k.val = k.val; rw [e1]; omega

/-- The bias row is taken whole. -/
theorem blk2_apply (c : Dev nD) (t : Fin cfg2.N) (u : Fin 1) (k : Fin 64) :
    (iblk2 V c 2 t : Vec Ideal S1x64 .f32) (ix2 u k) = (V c main_v11 : S1x64.Idx → EReal) (ix2 u k) := by
  obtain ⟨-, -, -, -, e0, e1, -⟩ := idx_facts t
  unfold iblk2
  rw [View.read_apply]
  show V c main_v11 _ = V c main_v11 _
  congr 1
  funext a
  apply Fin.ext
  match a with
  | ⟨0, _⟩ => show win2_2.index t (0 : Fin 2) * 1 + 1 * u.val = u.val; rw [e0]; omega
  | ⟨1, _⟩ => show win2_2.index t (1 : Fin 2) * 64 + 1 * k.val = k.val; rw [e1]; omega

/-- The weight matrix is taken whole. -/
theorem blk3_apply (c : Dev nD) (t : Fin cfg2.N) (k : Fin 64) (q : Fin 128) :
    (iblk2 V c 3 t : Vec Ideal S64x128 .f32) (ix2 k q) = (V c main_v5 : S64x128.Idx → EReal) (ix2 k q) := by
  obtain ⟨-, -, -, -, -, -, e0, e1, -⟩ := idx_facts t
  unfold iblk2
  rw [View.read_apply]
  show V c main_v5 _ = V c main_v5 _
  congr 1
  funext a
  apply Fin.ext
  match a with
  | ⟨0, _⟩ => show win2_3.index t (0 : Fin 2) * 64 + 1 * k.val = k.val; rw [e0]; omega
  | ⟨1, _⟩ => show win2_3.index t (1 : Fin 2) * 128 + 1 * q.val = q.val; rw [e1]; omega

/-! ## From the blocks to the whole result -/

/-- The matrix this launch owes: `relu (A · S + b) · W` of the four arrays it finds. -/
abbrev G (c : Dev nD) : Cert.Gcn.Mat 10000 128 :=
  Cert.Gcn.mm (M := 10000) (K := 64) (N := 128)
    (Cert.Gcn.hidden (n := 10000) (h := 64) (V c main_v2_1) (V c main_v2_0) (V c main_v11)) (V c main_v5)

/-- Entry `(p, q)` of the output block at point `t` sits at entry `(400 t + p, q)` of the result array. -/
theorem emb4 (t : Fin cfg2.N) (p : Fin 400) (q : Fin 128) (r : Fin 10000) (hr : r.val = t.val * 400 + p.val) :
    (((cfg2.win 4).blk t).view.emb (ix2 p q) : S10000x128.Idx) = ix2 r q := by
  obtain ⟨-, -, -, -, -, -, -, -, e0, e1⟩ := idx_facts t
  funext a
  apply Fin.ext
  match a with
  | ⟨0, _⟩ => show win2_4.index t (0 : Fin 2) * 400 + 1 * p.val = r.val; rw [e0, hr]; omega
  | ⟨1, _⟩ => show win2_4.index t (1 : Fin 2) * 128 + 1 * q.val = q.val; rw [e1]; omega

/-- What point `t` writes back is block `t` of `G`: row `400 t + p` of `relu (A · S + b) · W` only needs row
    `400 t + p` of `A`, which is row `p` of the adjacency block, and all of `S`, `b`, `W`. -/
theorem flushed_eq (c : Dev nD) (t : Fin cfg2.N) :
    (dat2 (F := Ideal) V c).flushed 4 t = ((cfg2.win 4).blk t).view.read (Elt Ideal) (G V c) := by
  show (cfg2.win 4).cut (grid2.coords t) ((dat2 V c).after 4 t) = _
  rw [after2_4]
  unfold out2_4
  rw [View.canon_unit_zero hz]
  simp only [View.ld_unit_zero (S := S400x10000) hz, View.ld_unit_zero (S := S10000x64) hz,
    View.ld_unit_zero (S := S1x64) hz, View.ld_unit_zero (S := S64x128) hz]
  have hN : cfg2.N = 25 := N_2
  have key : ∀ j : S400x128.Idx,
      k2_pay1 (F := Ideal) (iblk2 V c 0 t) (iblk2 V c 1 t) (iblk2 V c 2 t) (iblk2 V c 3 t) j
        = G V c (((cfg2.win 4).blk t).view.emb j) := by
    intro j
    obtain ⟨p, q, rfl⟩ : ∃ (p : Fin 400) (q : Fin 128), j = ix2 p q := ⟨j 0, j 1, eq_ix2 j⟩
    have hr : t.val * 400 + p.val < 10000 := by have := t.isLt; have := p.isLt; omega
    rw [emb4 t p q ⟨t.val * 400 + p.val, hr⟩ rfl]
    refine (pay_apply (iblk2 V c 0 t) (iblk2 V c 1 t) (iblk2 V c 2 t) (iblk2 V c 3 t) p q).trans ?_
    refine (Finset.sum_congr rfl fun k _ => ?_).trans (Cert.Gcn.mm_apply _ _ _ q).symm
    rw [Cert.Gcn.hidden_apply, blk3_apply V c t k q, blk2_apply V c t 0 k]
    refine congrArg₂ (· * ·) (congrArg₂ max (congrArg₂ (· + ·) (Finset.sum_congr rfl fun l _ => ?_) rfl) rfl) rfl
    rw [blk0_apply V c t p l ⟨_, hr⟩ rfl, blk1_apply V c t l k]
  funext j
  exact key j

/-- An index of the result array is in point `t`'s block iff each coordinate is in the block's range on its axis. -/
theorem mem_blk (t : Fin cfg2.N) (i : S10000x128.Idx) :
    i ∈ ((cfg2.win 4).blk t).view.set ↔ ∀ a : Fin 2, win2_4.index t a * S400x128.size a ≤ (i a).val
      ∧ (i a).val < win2_4.index t a * S400x128.size a + S400x128.size a := by
  show i ∈ ((View.whole main_v12).slice (win2_4.rect t)).set ↔ _
  rw [View.set_slice_whole, Rect.mem_set_unit]
  exact Iff.rfl

/-- The 25 blocks of 400 rows tile the 10000 rows: row `r` is in the block of point `r / 400`, and every point
    writes its block back. -/
theorem cover (i : S10000x128.Idx) :
    ∃ t : Fin cfg2.N, (cfg2.win 4).flush t = true ∧ i ∈ ((cfg2.win 4).blk t).view.set := by
  have hN : cfg2.N = 25 := N_2
  have hi0 : (i 0).val < 10000 := (i 0).isLt
  have hi1 : (i 1).val < 128 := (i 1).isLt
  obtain ⟨t, ht⟩ : ∃ t : Fin cfg2.N, t.val = (i 0).val / 400 := ⟨⟨(i 0).val / 400, by omega⟩, rfl⟩
  obtain ⟨-, -, -, -, -, -, -, -, e0, e1⟩ := idx_facts t
  refine ⟨t, flush2_4 t, ?_⟩
  rw [mem_blk]
  intro a
  match a with
  | ⟨0, _⟩ =>
    show win2_4.index t (0 : Fin 2) * 400 ≤ (i 0).val ∧ (i 0).val < win2_4.index t (0 : Fin 2) * 400 + 400
    rw [e0, ht]; omega
  | ⟨1, _⟩ =>
    show win2_4.index t (1 : Fin 2) * 128 ≤ (i 1).val ∧ (i 1).val < win2_4.index t (1 : Fin 2) * 128 + 128
    rw [e1]; omega

/-- After the third launch its result array holds `relu (A · S + b) · W` of the arrays the launch found. -/
theorem final (c : Dev nD) :
    (dat2 (F := Ideal) V c).arrAt 4 cfg2.N
      = Cert.Gcn.mm (M := 10000) (K := 64) (N := 128)
          (Cert.Gcn.hidden (n := 10000) (h := 64) (V c main_v2_1) (V c main_v2_0) (V c main_v11)) (V c main_v5) :=
  (dat2 V c).arrAt_eq_of_cover 4 (G V c) (fun t _ => flushed_eq V c t) cover

end Cert.KernelIdeal.Region2

end
-- ==== Proof.LibColumns.lean ====
/-
  Column forms of the layout operations, read at an index written by coordinates.

  A vector of `a` numbers is kept as a column `[a, 1]`, as a block `[1, a, 1]`, or flat `[a]`; a shape cast between these
  keeps the row-major position, which is the one coordinate `i` in every form. A column broadcast to `[a, b]` reads, at
  `(i, j)`, the column's entry `i`. The extents are arbitrary; every index is built by `ix1`, `ix2`, `ix3`.
-/
import Idealize.ShloMosaic.Lib.ValueIdx
import Idealize.ShloMosaic.Lib.Pipeline.Value

noncomputable section

namespace Cert.Lib.Columns

open Idealize.ShloMosaic Idealize.ShloMosaic.ValueIdx

variable {α : Type}

/-- `[1, a, 1]` cast to `[a]`: at `i` the operand at `(0, i, 0)`. -/
theorem shapeCast_1a1_a_apply {a : ℕ} (x : (⟨3, ![1, a, 1]⟩ : Shape).Idx → α)
    (h : (⟨3, ![1, a, 1]⟩ : Shape).ShapeCasts ⟨1, ![a]⟩) (i : Fin a) :
    shapeCast ⟨1, ![a]⟩ x h (ix1 i) = x (ix3 (0 : Fin 1) i (0 : Fin 1)) :=
  shapeCast_apply x h _ _ (by
    rw [Shape.rowMajor_val_three, Shape.rowMajor_val_one]
    show (0 * a + i.val) * 1 + 0 = i.val
    omega)

/-- `[a]` cast to `[1, a, 1]`: at `(u, i, v)` the operand at `i`. -/
theorem shapeCast_a_1a1_apply {a : ℕ} (x : (⟨1, ![a]⟩ : Shape).Idx → α)
    (h : (⟨1, ![a]⟩ : Shape).ShapeCasts ⟨3, ![1, a, 1]⟩) (u : Fin 1) (i : Fin a) (v : Fin 1) :
    shapeCast ⟨3, ![1, a, 1]⟩ x h (ix3 u i v) = x (ix1 i) :=
  shapeCast_apply x h _ _ (by
    have hu : u.val = 0 := by omega
    have hv : v.val = 0 := by omega
    rw [Shape.rowMajor_val_three, Shape.rowMajor_val_one]
    show i.val = (u.val * a + i.val) * 1 + v.val
    rw [hu, hv]
    omega)

/-- `[a]` cast to the column `[a, 1]`: at `(i, u)` the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]
    omega)

/-- A column `[a, 1]` broadcast to `[a, b]`: at `(i, j)` the column's entry `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.Lib.Columns

end
-- ==== Proof.Region3.lean ====
/-
  The last launch: the masked log-softmax of `A · S + b`, block of rows by block of rows.

  The launch walks 25 points. At point `t` it holds rows `400 t … 400 t + 399` of the adjacency matrix `A`
  (10000 × 10000), all of the support matrix `S` (10000 × 128) and the bias row `b` (1 × 128), and writes rows
  `400 t … 400 t + 399` of the result (10000 × 128). For a row of the block it forms the logits `h = A · S + b`
  (an exact sum of exact products, the bias row repeated on every row), the maximum `m` of `h` over the lanes whose
  number is below three (the other lanes count as `-∞`), the sum `s` over those lanes of `exp (h - m)` (the other
  lanes count as `0`), and leaves `h - (log s + m)` in every lane.

  An entry of the result therefore depends on its own row of the logits only, and that row of the block's logits is
  the row `400 t + p` of the whole array's logits. The 25 blocks of rows tile the result array: row `r` is written
  by point `r / 400`.
-/
import proofs.«147260_g4776003633739_cont_sun_c4_135_2_alg».proof.Proof.Gen.KernelIdeal.Frame
import proofs.«147260_g4776003633739_cont_sun_c4_135_2_alg».proof.Proof.Spec
import proofs.«147260_g4776003633739_cont_sun_c4_135_2_alg».proof.Proof.LibPlainMatmul
import proofs.«147260_g4776003633739_cont_sun_c4_135_2_alg».proof.Proof.LibColumns
import Idealize.ShloMosaic.Lib.Pipeline.Value
import Idealize.ShloMosaic.Lib.ValueLayout

noncomputable section

namespace Cert.KernelIdeal.Region3

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The body's arithmetic in four pieces -/

/-- The mask of the valid lanes: the lane's number is below three. -/
def laneMask : IVec S400x128 1 :=
  cmpi .slt (iota .tc S400x128 32 [1] iota_S400x128_d1_w32) (broadcast S400x128 3#32)

/-- The block's logits: the product of the block of rows with the support matrix, into zero, plus the bias row
    repeated on every row. -/
def blockLogits (x0 : FVec Ideal S400x10000 .bf16) (x1 : FVec Ideal S10000x128 .bf16) (x2 : FVec Ideal S1x128 .f32) :
    FVec Ideal S400x128 .f32 :=
  addf (matmul dot_S400x10000_S10000x128_S400x128_1_0_0_1_n_n none (shapeCast S400x10000 x0 shapeCasts_S400x10000_S400x10000)
      (shapeCast S10000x128 x1 shapeCasts_S10000x128_S10000x128) (constant (F := Ideal) S400x128 .f32 0x00000000#32))
    (broadcastTo S400x128 (shapeCast S1x128 x2 shapeCasts_S1x128_S1x128) broadcasts_S1x128_S400x128)

/-- Each row's maximum over the lanes, the masked lanes replaced by `-∞`. -/
def blockMax (h : FVec Ideal S400x128 .f32) : FVec Ideal S400 .f32 :=
  multiReduction .maximumf [1] S400
    (select laneMask h (broadcast S400x128 (Scalar.ofBits (F := Ideal) .f32 0xFF800000#32)))
    0xFF800000#32 reduces_S400x128_S400 (.inl rfl) rfl

/-- Each row's sum over the lanes of `exp (h - m)`, the masked lanes replaced by `0`. -/
def blockSumExp (h : FVec Ideal S400x128 .f32) (m : FVec Ideal S400 .f32) : FVec Ideal S400 .f32 :=
  multiReduction .add [1] S400
    (select laneMask
      (exp (subf h (broadcastTo S400x128 (shapeCast S400x1 m shapeCasts_S400_S400x1) broadcasts_S400x1_S400x128)))
      (broadcast S400x128 (Scalar.ofBits (F := Ideal) .f32 0x00000000#32)))
    0x00000000#32 reduces_S400x128_S400 (.inl rfl) rfl

/-- The stored value is `h - (log s + m)`, the column `log s + m` repeated over the lanes. -/
theorem payload_eq (x0 : FVec Ideal S400x10000 .bf16) (x1 : FVec Ideal S10000x128 .bf16) (x2 : FVec Ideal S1x128 .f32) :
    k3_pay1 (F := Ideal) x0 x1 x2
      = subf (blockLogits x0 x1 x2)
          (broadcastTo S400x128
            (addf (log (shapeCast S400x1 (blockSumExp (blockLogits x0 x1 x2) (blockMax (blockLogits x0 x1 x2))) shapeCasts_S400_S400x1))
              (shapeCast S400x1 (blockMax (blockLogits x0 x1 x2)) shapeCasts_S400_S400x1))
            broadcasts_S400x1_S400x128) := rfl

/-! ## Each piece at an entry -/

/-- The block's logits at `(p, q)`: `∑ k, x0 (p, k) * x1 (k, q) + x2 (0, q)`. -/
theorem blockLogits_apply (x0 : FVec Ideal S400x10000 .bf16) (x1 : FVec Ideal S10000x128 .bf16) (x2 : FVec Ideal S1x128 .f32)
    (p : Fin 400) (q : Fin 128) :
    blockLogits x0 x1 x2 (ix2 p q) = (∑ k : Fin 10000, x0 (ix2 p k) * x1 (ix2 k q)) + x2 (ix2 (0 : Fin 1) q) := by
  unfold blockLogits
  rw [addf_apply, shapeCast_self, shapeCast_self, shapeCast_self]
  refine congrArg₂ (· + ·) ?_ ?_
  · show FloatOps.matmul (DotDims.plain 400 10000 128) none x0 x1 (constant (F := Ideal) ⟨2, ![400, 128]⟩ .f32 0x00000000#32) (ix2 p q) = _
    exact Cert.Lib.PlainMatmul.matmul_zero_apply none x0 x1 p q
  · exact broadcastTo_1b_ab_apply x2 _ p q

/-- As signed 32-bit words, a lane's number is below three exactly when it is as a natural number. -/
theorem lane_lt : ∀ q : Fin 128, IntOp.cmpi .slt (BitVec.ofNat 32 q.val) 3#32 = if q.val < 3 then 1#1 else 0#1 := by
  decide +kernel

/-- The mask's bit at lane `q`. -/
theorem laneMask_apply (p : Fin 400) (q : Fin 128) : laneMask (ix2 p q) = if q.val < 3 then 1#1 else 0#1 := by
  unfold laneMask
  show IntOp.cmpi .slt (iota .tc S400x128 32 [1] iota_S400x128_d1_w32 (ix2 p q)) 3#32 = _
  rw [iota_single_apply]
  exact lane_lt q

/-- The word `0xFF800000` is `-∞`. -/
theorem negInf : Scalar.ofBits (F := Ideal) .f32 0xFF800000#32 = (⊥ : EReal) := by
  simp [Scalar.ofBits, Ideal.ofBits, Ideal.ieee]

/-- The zero word is `0`. -/
theorem zeroWord : Scalar.ofBits (F := Ideal) .f32 0x00000000#32 = (0 : EReal) := by
  simp [Scalar.ofBits, Ideal.ofBits, Ideal.ieee]

/-- A choice by the mask at lane `q`: the first operand on a valid lane, the second otherwise. -/
theorem select_mask_apply (a b : S400x128.Idx → EReal) (p : Fin 400) (q : Fin 128) :
    select laneMask a b (ix2 p q) = if q.val < 3 then a (ix2 p q) else b (ix2 p q) := by
  rw [select_apply, laneMask_apply]
  split
  · exact select_one _ _
  · exact select_zero _ _

/-- The index over row `r` with lane `k` put back is `(r, k)`. -/
theorem lift_eq (r : Fin 400) (k : Fin 128) : reduces_S400x128_S400.lift (ix1 r) k = ix2 r k := by
  funext c
  apply Fin.ext
  match c with
  | ⟨0, _⟩ => rfl
  | ⟨1, _⟩ => rfl

/-- Row `r`'s maximum: the fold of `max` from `-∞` over the 128 lanes, a masked lane counting as `-∞`. -/
theorem blockMax_apply (h : FVec Ideal S400x128 .f32) (r : Fin 400) :
    blockMax h (ix1 r) = (Finset.univ : Finset (Fin 128)).fold max ⊥ (fun j => if j.val < 3 then h (ix2 r j) else ⊥) := by
  unfold blockMax
  refine (Ideal.multiReduction_maximumf_single _ _ reduces_S400x128_S400 (.inl rfl) rfl (ix1 r)).trans ?_
  show (Finset.univ : Finset (Fin 128)).fold max (Ideal.ofBits .f32 0xFF800000#32) _ = _
  have e0 : Ideal.ofBits .f32 0xFF800000#32 = (⊥ : EReal) := by simp [Ideal.ofBits, Ideal.ieee]
  rw [e0]
  refine congrArg (fun g => (Finset.univ : Finset (Fin 128)).fold max ⊥ g) (funext fun (j : Fin 128) => ?_)
  show select laneMask h (broadcast S400x128 (Scalar.ofBits (F := Ideal) .f32 0xFF800000#32)) (reduces_S400x128_S400.lift (ix1 r) j) = _
  rw [lift_eq, select_mask_apply, broadcast_apply, negInf]

/-- The exponential and the logarithm of a vector, at an entry. -/
theorem expv_apply {s : Shape} {φ : FTy} (a : FVec Ideal s φ) (i : s.Idx) : exp a i = Ideal.exp (a i) := rfl
theorem logv_apply {s : Shape} {φ : FTy} (a : FVec Ideal s φ) (i : s.Idx) : log a i = Ideal.log (a i) := rfl

/-- A vector of 400 numbers kept as a column and repeated over the lanes reads, at `(r, q)`, its entry `r`. -/
theorem spread_apply (m : FVec Ideal S400 .f32) (r : Fin 400) (q : Fin 128) :
    broadcastTo S400x128 (shapeCast S400x1 m shapeCasts_S400_S400x1) broadcasts_S400x1_S400x128 (ix2 r q) = m (ix1 r) := by
  rw [Cert.Lib.Columns.broadcastTo_a1_ab_apply, Cert.Lib.Columns.shapeCast_a_a1_apply]

/-- Row `r`'s sum over the 128 lanes of `exp (h - m)`, a masked lane counting as `0`. -/
theorem blockSumExp_apply (h : FVec Ideal S400x128 .f32) (m : FVec Ideal S400 .f32) (r : Fin 400) :
    blockSumExp h m (ix1 r) = ∑ j : Fin 128, if j.val < 3 then Ideal.exp (h (ix2 r j) - m (ix1 r)) else 0 := by
  unfold blockSumExp
  refine (Ideal.multiReduction_add_single _ _ reduces_S400x128_S400 (.inl rfl) rfl (ix1 r)).trans ?_
  show (∑ j : Fin 128, _) = _
  refine Finset.sum_congr rfl fun (j : Fin 128) _ => ?_
  show select laneMask (exp (subf h (broadcastTo S400x128 (shapeCast S400x1 m shapeCasts_S400_S400x1) broadcasts_S400x1_S400x128)))
    (broadcast S400x128 (Scalar.ofBits (F := Ideal) .f32 0x00000000#32)) (reduces_S400x128_S400.lift (ix1 r) j) = _
  rw [lift_eq, select_mask_apply, broadcast_apply, zeroWord, expv_apply, subf_apply, spread_apply]

/-- THE STORED VALUE AT AN ENTRY: the masked log-softmax over three lanes of the block's logits. -/
theorem payload_apply (x0 : FVec Ideal S400x10000 .bf16) (x1 : FVec Ideal S10000x128 .bf16) (x2 : FVec Ideal S1x128 .f32)
    (p : Fin 400) (q : Fin 128) :
    k3_pay1 (F := Ideal) x0 x1 x2 (ix2 p q)
      = Cert.Gcn.logSoftmaxWide (n := 400) (w := 128) 3 (blockLogits x0 x1 x2) (ix2 p q) := by
  rw [payload_eq, subf_apply, Cert.Lib.Columns.broadcastTo_a1_ab_apply, addf_apply, logv_apply,
    Cert.Lib.Columns.shapeCast_a_a1_apply, Cert.Lib.Columns.shapeCast_a_a1_apply, blockSumExp_apply, blockMax_apply]
  rfl

open Cert.Gcn in
/-- ONE POINT: when the first block holds rows `400·tv …` of `A`, the second all of `S` and the third the row `b`,
    the stored value at an entry of the block is the masked log-softmax of `A·S + b` at the array's entry it stands
    for: an entry's value depends on its own row of the logits only. -/
theorem point_eq (x0 : FVec Ideal S400x10000 .bf16) (x1 : FVec Ideal S10000x128 .bf16) (x2 : FVec Ideal S1x128 .f32)
    (A : Mat 10000 10000) (S : Mat 10000 128) (b : Mat 1 128) (tv : Nat)
    (h0 : ∀ (p : Fin 400) (k : Fin 10000) (R : Fin 10000), R.val = tv * 400 + p.val → x0 (ix2 p k) = A (ix2 R k))
    (h1 : ∀ (k : Fin 10000) (q : Fin 128), x1 (ix2 k q) = S (ix2 k q))
    (h2 : ∀ q : Fin 128, x2 (ix2 (0 : Fin 1) q) = b (ix2 (0 : Fin 1) q))
    (j : S400x128.Idx) (i : S10000x128.Idx) (hi0 : (i 0).val = tv * 400 + (j 0).val) (hi1 : (i 1).val = (j 1).val) :
    k3_pay1 (F := Ideal) x0 x1 x2 j = logSoftmaxWide (n := 10000) (w := 128) 3 (logits A S b) i := by
  obtain ⟨p, q, rfl⟩ : ∃ (p : Fin 400) (q : Fin 128), j = ix2 p q := ⟨j 0, j 1, eq_ix2 j⟩
  obtain ⟨R, q', rfl⟩ : ∃ (R : Fin 10000) (q' : Fin 128), i = ix2 R q' := ⟨i 0, i 1, eq_ix2 i⟩
  have hq : q' = q := Fin.ext hi1
  subst hq
  have hR : R.val = tv * 400 + p.val := hi0
  -- row `p` of the block's logits is row `R` of the array's
  have hrow : ∀ l : Fin 128, blockLogits x0 x1 x2 (ix2 p l) = logits A S b (ix2 R l) := fun l => by
    rw [blockLogits_apply, logits_apply, h2]
    refine congrArg (· + _) (Finset.sum_congr rfl fun k _ => ?_)
    rw [h0 p k R hR, h1]
  -- so the two rows have one maximum and one sum of exponentials
  have hmax : rowMax (n := 400) (w := 128) 3 (blockLogits x0 x1 x2) p = rowMax 3 (logits A S b) R := by
    unfold rowMax
    exact congrArg (fun g => (Finset.univ : Finset (Fin 128)).fold max ⊥ g) (funext fun l => by rw [hrow])
  have hsum : rowSumExp (n := 400) (w := 128) 3 (blockLogits x0 x1 x2) p = rowSumExp 3 (logits A S b) R := by
    unfold rowSumExp
    rw [hmax]
    exact Finset.sum_congr rfl fun l _ => by rw [hrow]
  rw [payload_apply, logSoftmaxWide_apply, logSoftmaxWide_apply, hrow, hmax, hsum]

/-! ## From the blocks to the array -/

theorem zero_offsets : (![0, 0] : Fin 2 → Nat) = fun _ => 0 := funext fun a => by fin_cases a <;> rfl

/-- The block indices over the grid: the windows of row blocks sit at block `(t, 0)`, the whole arrays at `(0, 0)`. -/
theorem block_index : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What the launch leaves in its result array. -/
abbrev result (c : Dev nD) : Cert.Gcn.Mat 10000 128 :=
  Cert.Gcn.logSoftmaxWide (n := 10000) (w := 128) 3
    (Cert.Gcn.logits (n := 10000) (h := 128) (V c main_v2_1) (V c main_v12) (V c main_v10))

/-- WHAT POINT `t` WRITES BACK is block `t` of `result`: a coordinate of a block's entry in its array is the block's
    index times the block's extent plus the coordinate inside the block. -/
theorem flushed_eq (c : Dev nD) (t : Fin cfg3.N) :
    (dat3 (F := Ideal) V c).flushed 3 t = ((cfg3.win 3).blk t).view.read (Elt Ideal) (result V c) := by
  show (cfg3.win 3).cut (grid3.coords t) ((dat3 V c).after 3 t) = _
  rw [after3_3]
  unfold out3_3
  rw [View.canon_unit_zero zero_offsets]
  simp only [View.ld_unit_zero (S := S400x10000) zero_offsets, View.ld_unit_zero (S := S10000x128) zero_offsets,
    View.ld_unit_zero (S := S1x128) zero_offsets]
  obtain ⟨e00, e01, e10, e11, e20, e21, e30, e31⟩ := block_index t
  funext j
  refine point_eq (iblk3 V c 0 t) (iblk3 V c 1 t) (iblk3 V c 2 t) (V c main_v2_1) (V c main_v12) (V c main_v10) t.val ?_ ?_ ?_
    ((cfg3.win 3).xinj (grid3.coords t) j) (((cfg3.win 3).blk t).view.emb j) ?_ ?_
  · intro p k R hR
    unfold iblk3
    rw [View.read_apply]
    show V c main_v2_1 (((cfg3.win 0).blk t).view.emb (ix2 p k)) = V c main_v2_1 (ix2 R k)
    refine congrArg (V c main_v2_1) (funext fun a => Fin.ext ?_)
    match a with
    | ⟨0, _⟩ => show win3_0.index t (0 : Fin 2) * 400 + 1 * p.val = R.val; omega
    | ⟨1, _⟩ => show win3_0.index t (1 : Fin 2) * 10000 + 1 * k.val = k.val; omega
  · intro k q
    unfold iblk3
    rw [View.read_apply]
    show V c main_v12 (((cfg3.win 1).blk t).view.emb (ix2 k q)) = V c main_v12 (ix2 k q)
    refine congrArg (V c main_v12) (funext fun a => Fin.ext ?_)
    match a with
    | ⟨0, _⟩ => show win3_1.index t (0 : Fin 2) * 10000 + 1 * k.val = k.val; omega
    | ⟨1, _⟩ => show win3_1.index t (1 : Fin 2) * 128 + 1 * q.val = q.val; omega
  · intro q
    unfold iblk3
    rw [View.read_apply]
    show V c main_v10 (((cfg3.win 2).blk t).view.emb (ix2 (0 : Fin 1) q)) = V c main_v10 (ix2 (0 : Fin 1) q)
    refine congrArg (V c main_v10) (funext fun a => Fin.ext ?_)
    match a with
    | ⟨0, _⟩ => show win3_2.index t (0 : Fin 2) * 1 + 1 * 0 = 0; omega
    | ⟨1, _⟩ => show win3_2.index t (1 : Fin 2) * 128 + 1 * q.val = q.val; omega
  · show win3_3.index t (0 : Fin 2) * 400 + 1 * (j 0).val = t.val * 400 + (j 0).val
    omega
  · show win3_3.index t (1 : Fin 2) * 128 + 1 * (j 1).val = (j 1).val
    omega

/-- An index of the result array is in point `t`'s block iff each coordinate is in the block's range on its axis. -/
theorem mem_block (t : Fin cfg3.N) (i : S10000x128.Idx) :
    i ∈ ((cfg3.win 3).blk t).view.set
      ↔ ∀ a : Fin 2, win3_3.index t a * S400x128.size a ≤ (i a).val
          ∧ (i a).val < win3_3.index t a * S400x128.size a + S400x128.size a := by
  show i ∈ ((View.whole main_v13).slice (win3_3.rect t)).set ↔ _
  rw [View.set_slice_whole, Rect.mem_set_unit]
  exact Iff.rfl

/-- Every entry of the result array is written by the point of its block of rows: row `r` by point `r / 400`. -/
theorem cover (i : S10000x128.Idx) :
    ∃ t : Fin cfg3.N, (cfg3.win 3).flush t = true ∧ i ∈ ((cfg3.win 3).blk t).view.set := by
  have hi0 : (i 0).val < 10000 := (i 0).isLt
  have hi1 : (i 1).val < 128 := (i 1).isLt
  have hN : cfg3.N = 25 := N_3
  have ht : (i 0).val / 400 < cfg3.N := by rw [hN]; omega
  obtain ⟨_, _, _, _, _, _, e30, e31⟩ := block_index ⟨(i 0).val / 400, ht⟩
  refine ⟨⟨(i 0).val / 400, ht⟩, flush3_3 _, ?_⟩
  rw [mem_block]
  intro a
  match a with
  | ⟨0, _⟩ =>
    show win3_3.index ⟨(i 0).val / 400, ht⟩ (0 : Fin 2) * 400 ≤ (i 0).val
      ∧ (i 0).val < win3_3.index ⟨(i 0).val / 400, ht⟩ (0 : Fin 2) * 400 + 400
    rw [e30]
    show (i 0).val / 400 * 400 ≤ (i 0).val ∧ (i 0).val < (i 0).val / 400 * 400 + 400
    omega
  | ⟨1, _⟩ =>
    show win3_3.index ⟨(i 0).val / 400, ht⟩ (1 : Fin 2) * 128 ≤ (i 1).val
      ∧ (i 1).val < win3_3.index ⟨(i 0).val / 400, ht⟩ (1 : Fin 2) * 128 + 128
    rw [e31]
    omega

/-- After the last launch its result array holds the masked log-softmax of `A · S + b` of the arrays the launch found. -/
theorem final (c : Dev nD) :
    (dat3 (F := Ideal) V c).arrAt 3 cfg3.N
      = Cert.Gcn.logSoftmaxWide (n := 10000) (w := 128) 3
          (Cert.Gcn.logits (n := 10000) (h := 128) (V c main_v2_1) (V c main_v12) (V c main_v10)) :=
  (dat3 V c).arrAt_eq_of_cover 3 (result V c) (fun t _ => flushed_eq V c t) cover

end Cert.KernelIdeal.Region3

end
-- ==== Proof.Thread.lean ====
/-
  The result array of the idealized kernel program, followed from the last buffer boundary back to the arguments.

  Each launch leaves in its result array one whole-array function of the arrays it found (the four launch modules); a
  host stretch leaves its operations' values (the host-operation module) and touches nothing else; an array no
  operation of a stretch writes and no launch stages as an output is what it was. Composed from the slice of the last
  launch's result back to the launch memory this is the network in its wide spelling: padded last layer, log-softmax
  over the three valid lanes, first three columns kept.
-/
import proofs.«147260_g4776003633739_cont_sun_c4_135_2_alg».proof.Proof.Gen.KernelIdeal.Frame
import proofs.«147260_g4776003633739_cont_sun_c4_135_2_alg».proof.Proof.Spec
import proofs.«147260_g4776003633739_cont_sun_c4_135_2_alg».proof.Proof.HostOps
import proofs.«147260_g4776003633739_cont_sun_c4_135_2_alg».proof.Proof.Region0
import proofs.«147260_g4776003633739_cont_sun_c4_135_2_alg».proof.Proof.Region1
import proofs.«147260_g4776003633739_cont_sun_c4_135_2_alg».proof.Proof.Region2
import proofs.«147260_g4776003633739_cont_sun_c4_135_2_alg».proof.Proof.Region3
import Idealize.ShloMosaic.Lib.StableHlo.Run
import Idealize.ShloMosaic.Lib.Pipeline.Value

noncomputable section

namespace Cert.KernelIdeal.Thread

open Cert.KernelIdeal Cert.KernelIdeal.Gen Idealize.ShloMosaic Idealize.ShloMosaic.TcCoe Idealize.SL.Sem
open Idealize.ShloMosaic.ValueIdx Idealize.ShloMosaic.StableHlo Cert.Gcn
open Idealize.ShloMosaic.Pipeline (Dat)

variable (m : (ℓ : Loc nD τ sig) → Buf (Elt Ideal) ℓ) (ρ : Dev nD → PrngReg)

/-- A stretch of host operations leaves a buffer none of them writes as it was. -/
macro "host_keep " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))))

/-! ## The arguments, as matrices and vectors -/

abbrev aX (c : Dev nD) : Mat 10000 128 := m ((c : Thread nD τ).loc main_arg0)
abbrev aA (c : Dev nD) : Mat 10000 10000 := m ((c : Thread nD τ).loc main_arg1)
abbrev aW1 (c : Dev nD) : Mat 128 128 := m ((c : Thread nD τ).loc main_arg2)
abbrev ab1 (c : Dev nD) : Row 128 := m ((c : Thread nD τ).loc main_arg3)
abbrev aW2 (c : Dev nD) : Mat 128 64 := m ((c : Thread nD τ).loc main_arg4)
abbrev ab2 (c : Dev nD) : Row 64 := m ((c : Thread nD τ).loc main_arg5)
abbrev aW3 (c : Dev nD) : Mat 64 3 := m ((c : Thread nD τ).loc main_arg6)
abbrev ab3 (c : Dev nD) : Row 3 := m ((c : Thread nD τ).loc main_arg7)

/-! ## After the first launch and the first host stretch -/

/-- The first launch's result: `x · W₁`. -/
theorem v1_sup (c : Dev nD) : (V1 m ρ c main_v0 : Mat 10000 128) = mm (aX m c) (aW1 m c) := by
  show W1 m ρ c (Proc.devRef .tc (Pipeline.arrRef spec0 2)) = _
  rw [W1_arr]
  exact Region0.final (V0 m ρ) c

theorem v2_sup (c : Dev nD) : (V2 m ρ c main_v0 : Mat 10000 128) = mm (aX m c) (aW1 m c) :=
  (show W2 m ρ c (Proc.devRef .tc main_v0) = W1 m ρ c (Proc.devRef .tc main_v0) by host_keep hostOps1).trans (v1_sup m ρ c)

theorem v2_adj (c : Dev nD) : (V2 m ρ c main_arg1 : Mat 10000 10000) = aA m c :=
  (show W2 m ρ c (Proc.devRef .tc main_arg1) = W1 m ρ c (Proc.devRef .tc main_arg1) by host_keep hostOps1).trans
    (W1_of_ne m ρ c main_arg1 (by decide))

theorem v2_w2 (c : Dev nD) : (V2 m ρ c main_arg4 : Mat 128 64) = aW2 m c :=
  (show W2 m ρ c (Proc.devRef .tc main_arg4) = W1 m ρ c (Proc.devRef .tc main_arg4) by host_keep hostOps1).trans
    (W1_of_ne m ρ c main_arg4 (by decide))

/-- The first bias, reshaped to one row. -/
theorem v2_b1 (c : Dev nD) : (V2 m ρ c main_v1 : Mat 1 128) = asRow (ab1 m c) := by
  show StableHlo.after hostOps1 (W1 m ρ c) (Proc.devRef .tc main_v1) = _
  after_results
  show shapeCast S1x128 (W1 m ρ c (Proc.devRef .tc main_arg3)) shapeCasts_S128_S1x128 = _
  rw [W1_of_ne m ρ c main_arg3 (by decide)]
  exact HostOps.reshape_row _ _

/-! ## After the second launch and the second host stretch -/

/-- The second launch's first result: `relu (A · (x · W₁) + b₁) · W₂`. -/
theorem v3_sup (c : Dev nD) :
    (V3 m ρ c main_v2_0 : Mat 10000 64) = mm (hidden (aA m c) (mm (aX m c) (aW1 m c)) (asRow (ab1 m c))) (aW2 m c) := by
  show W3 m ρ c (Proc.devRef .tc (Pipeline.arrRef spec1 4)) = _
  rw [W3_arr, Region1.final_sup (V2 m ρ) c, v2_adj, v2_sup, v2_b1, v2_w2]

/-- The second launch's second result: the adjacency matrix. -/
theorem v3_adj (c : Dev nD) : (V3 m ρ c main_v2_1 : Mat 10000 10000) = aA m c := by
  show W3 m ρ c (Proc.devRef .tc (Pipeline.arrRef spec1 5)) = _
  rw [W3_arr, Region1.final_adj (V2 m ρ) c, v2_adj]

theorem w3_b2 (c : Dev nD) : (W3 m ρ c (Proc.devRef .tc main_arg5) : Row 64) = ab2 m c :=
  (W3_of_ne m ρ c main_arg5 (by decide)).trans
    ((show W2 m ρ c (Proc.devRef .tc main_arg5) = W1 m ρ c (Proc.devRef .tc main_arg5) by host_keep hostOps1).trans
      (W1_of_ne m ρ c main_arg5 (by decide)))

theorem w3_w3 (c : Dev nD) : (W3 m ρ c (Proc.devRef .tc main_arg6) : Mat 64 3) = aW3 m c :=
  (W3_of_ne m ρ c main_arg6 (by decide)).trans
    ((show W2 m ρ c (Proc.devRef .tc main_arg6) = W1 m ρ c (Proc.devRef .tc main_arg6) by host_keep hostOps1).trans
      (W1_of_ne m ρ c main_arg6 (by decide)))

theorem w3_b3 (c : Dev nD) : (W3 m ρ c (Proc.devRef .tc main_arg7) : Row 3) = ab3 m c :=
  (W3_of_ne m ρ c main_arg7 (by decide)).trans
    ((show W2 m ρ c (Proc.devRef .tc main_arg7) = W1 m ρ c (Proc.devRef .tc main_arg7) by host_keep hostOps1).trans
      (W1_of_ne m ρ c main_arg7 (by decide)))

theorem v4_sup (c : Dev nD) :
    (V4 m ρ c main_v2_0 : Mat 10000 64) = mm (hidden (aA m c) (mm (aX m c) (aW1 m c)) (asRow (ab1 m c))) (aW2 m c) :=
  (show W4 m ρ c (Proc.devRef .tc main_v2_0) = W3 m ρ c (Proc.devRef .tc main_v2_0) by host_keep hostOps2).trans (v3_sup m ρ c)

theorem v4_adj (c : Dev nD) : (V4 m ρ c main_v2_1 : Mat 10000 10000) = aA m c :=
  (show W4 m ρ c (Proc.devRef .tc main_v2_1) = W3 m ρ c (Proc.devRef .tc main_v2_1) by host_keep hostOps2).trans (v3_adj m ρ c)

/-- The second bias, reshaped to one row. -/
theorem v4_b2 (c : Dev nD) : (V4 m ρ c main_v11 : Mat 1 64) = asRow (ab2 m c) := by
  show StableHlo.after hostOps2 (W3 m ρ c) (Proc.devRef .tc main_v11) = _
  after_results
  show shapeCast S1x64 (W3 m ρ c (Proc.devRef .tc main_arg5)) shapeCasts_S64_S1x64 = _
  rw [w3_b2]
  exact HostOps.reshape_row _ _

/-- The last weight matrix, padded with zero columns to 128 lanes. -/
theorem v4_w3 (c : Dev nD) : (V4 m ρ c main_v5 : Mat 64 128) = padCols 128 (aW3 m c) := by
  show StableHlo.after hostOps2 (W3 m ρ c) (Proc.devRef .tc main_v5) = _
  after_results
  rw [w3_w3]
  exact HostOps.scatter_mat _ HostOps.idx_mat_zero _

/-- The last bias as a row, padded with zeros to 128 lanes. -/
theorem v4_b3 (c : Dev nD) : (V4 m ρ c main_v10 : Mat 1 128) = padCols 128 (asRow (ab3 m c)) := by
  show StableHlo.after hostOps2 (W3 m ρ c) (Proc.devRef .tc main_v10) = _
  after_results
  rw [w3_b3]
  exact HostOps.scatter_row _ HostOps.idx_row_zero _

/-! ## After the third launch -/

/-- The third launch's result: `relu (A · sup₂ + b₂) · W₃` with `W₃` padded. -/
theorem v5_sup (c : Dev nD) :
    (V5 m ρ c main_v12 : Mat 10000 128) = mm (hidden₂ (aX m c) (aA m c) (aW1 m c) (ab1 m c) (aW2 m c) (ab2 m c)) (padCols 128 (aW3 m c)) := by
  show W5 m ρ c (Proc.devRef .tc (Pipeline.arrRef spec2 4)) = _
  rw [W5_arr, Region2.final (V4 m ρ) c, v4_adj, v4_sup, v4_b2, v4_w3]
  rfl

theorem v5_adj (c : Dev nD) : (V5 m ρ c main_v2_1 : Mat 10000 10000) = aA m c := by
  show W5 m ρ c (Proc.devRef .tc (Pipeline.arrRef spec2 0)) = _
  rw [W5_arr]
  exact ((dat2 (V4 m ρ) c).arrAt_in 0 rfl _).trans ((A_eq2 (V4 m ρ) c 0).trans (v4_adj m ρ c))

theorem v5_b3 (c : Dev nD) : (V5 m ρ c main_v10 : Mat 1 128) = padCols 128 (asRow (ab3 m c)) :=
  (W5_of_ne m ρ c main_v10 (by decide)).trans (v4_b3 m ρ c)

/-! ## After the last launch, and the result -/

/-- The last launch's result: the masked log-softmax of the padded logits. -/
theorem v6_out (c : Dev nD) :
    (V6 m ρ c main_v13 : Mat 10000 128)
      = logSoftmaxWide 3 (logits (aA m c)
          (mm (hidden₂ (aX m c) (aA m c) (aW1 m c) (ab1 m c) (aW2 m c) (ab2 m c)) (padCols 128 (aW3 m c)))
          (padCols 128 (asRow (ab3 m c)))) := by
  show W6 m ρ c (Proc.devRef .tc (Pipeline.arrRef spec3 3)) = _
  rw [W6_arr, Region3.final (V5 m ρ) c, v5_adj, v5_sup, v5_b3]

/-- THE RESULT: the slice of the first three columns is the network in its wide spelling. -/
theorem result (c : Dev nD) :
    (W7 m ρ c (Proc.devRef .tc main_v14) : Mat 10000 3)
      = wideOut (w := 128) (by decide) (aX m c) (aA m c) (aW1 m c) (ab1 m c) (aW2 m c) (ab2 m c) (aW3 m c) (ab3 m c) := by
  show StableHlo.after hostOps4 (W6 m ρ c) (Proc.devRef .tc main_v14) = _
  after_results
  funext i
  obtain ⟨r, q, rfl⟩ : ∃ (r : Fin 10000) (q : Fin 3), i = ix2 r q := ⟨i 0, i 1, eq_ix2 i⟩
  refine (HostOps.slice_apply _ r q).trans ?_
  show (V6 m ρ c main_v13 : Mat 10000 128) _ = _
  rw [v6_out]
  rfl

end Cert.KernelIdeal.Thread

end
-- ==== Proof.lean ====
/-
  The certificate: a three-layer graph network with a dense adjacency matrix, computed by four launches (the first
  support `x · W₁`; two fused layers `relu (A · S + b) · W`; the last layer's logits with a log-softmax over the three
  valid lanes of 128), against the plain network `log_softmax (A · (relu (A · (relu (A · (x · W₁) + b₁) · W₂) + b₂) · W₃) + b₃)`.

  Over the extended reals a change of float format is the identity, so the copy of the adjacency matrix the second
  launch writes is the adjacency matrix, and both programs multiply in the same association; the programs differ only
  in the last layer's spelling (zero-padded lanes, masked maximum and sum, `h - (log Σ + max)` against
  `(h - max) - log Σ`), which agree where every input is finite: the specification module proves that.

  The three frames: the two kernel programs' are the generated frame certificates; the reference's is its run with the
  result dropped. The ideal pass rewrote nothing, so the idealization statement is `True`. The value claim sets the
  kernel program's run with its result named (the result array read back through the launches and host stretches to
  the arguments) beside the reference's run (its result term read as the network), under the precondition's finiteness.
-/
import proofs.«147260_g4776003633739_cont_sun_c4_135_2_alg».proof.Defs
import proofs.«147260_g4776003633739_cont_sun_c4_135_2_alg».proof.Proof.Gen.Kernel
import proofs.«147260_g4776003633739_cont_sun_c4_135_2_alg».proof.Proof.Gen.Kernel.Frame
import proofs.«147260_g4776003633739_cont_sun_c4_135_2_alg».proof.Proof.Gen.KernelIdeal
import proofs.«147260_g4776003633739_cont_sun_c4_135_2_alg».proof.Proof.Gen.KernelIdeal.Frame
import proofs.«147260_g4776003633739_cont_sun_c4_135_2_alg».proof.Proof.Gen.ReferenceIdeal
import proofs.«147260_g4776003633739_cont_sun_c4_135_2_alg».proof.Proof.Gen.Pre_finite_inputs
import proofs.«147260_g4776003633739_cont_sun_c4_135_2_alg».proof.Proof.Spec
import proofs.«147260_g4776003633739_cont_sun_c4_135_2_alg».proof.Proof.Finite
import proofs.«147260_g4776003633739_cont_sun_c4_135_2_alg».proof.Proof.RefRun
import proofs.«147260_g4776003633739_cont_sun_c4_135_2_alg».proof.Proof.RefValue
import proofs.«147260_g4776003633739_cont_sun_c4_135_2_alg».proof.Proof.RunValue
import proofs.«147260_g4776003633739_cont_sun_c4_135_2_alg».proof.Proof.Thread
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the network's value: the kernel program's result array is the wide spelling of the
    arguments, the reference's the narrow one, and the two agree because the precondition makes every argument entry
    a real number. -/
theorem algebraic : Cert.algebraic_KernelIdeal_ReferenceIdeal := by
  intro m ρ m' ρ' hpre hagree
  refine ⟨fun c => Cert.Gcn.narrowOut (n := 10000) (f := 128) (h₁ := 128) (h₂ := 64) (v := 3)
      (Cert.KernelIdeal.Thread.aX m c) (Cert.KernelIdeal.Thread.aA m c) (Cert.KernelIdeal.Thread.aW1 m c)
      (Cert.KernelIdeal.Thread.ab1 m c) (Cert.KernelIdeal.Thread.aW2 m c) (Cert.KernelIdeal.Thread.ab2 m c)
      (Cert.KernelIdeal.Thread.aW3 m c) (Cert.KernelIdeal.Thread.ab3 m c), ?_, ?_⟩
  · refine (θ_run Cert.KernelIdeal.defs _ _).mono (fun r h c => ⟨(h c).1.trans ?_, (h c).2⟩)
      (Cert.KernelIdeal.Gen.run_result (F := Ideal) m ρ)
    obtain ⟨h0, h1, h2, h3, h4, h5, h6, h7⟩ := Cert.Finite.args_real _ _ _ _ _ _ _ _ (hpre c)
    exact (Cert.KernelIdeal.Thread.result m ρ c).trans
      (Cert.Gcn.wideOut_eq_narrowOut (w := 128) (by decide) _ _ _ _ _ _ _ _ (by decide) h0 h1 h2 h3 h4 h5 h6 h7)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5, e6, e7⟩ := hagree c
    rw [Cert.ReferenceIdeal.RefValue.result_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
